-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x16x512x512 : Shape := ⟨4, ![3, 16, 512, 512]⟩
abbrev S16x512x512 : Shape := ⟨3, ![16, 512, 512]⟩
abbrev S16x512 : Shape := ⟨2, ![16, 512]⟩
abbrev S6x512x512 : Shape := ⟨3, ![6, 512, 512]⟩
abbrev S6x512 : Shape := ⟨2, ![6, 512]⟩
abbrev S512x3072 : Shape := ⟨2, ![512, 3072]⟩
abbrev S512 : Shape := ⟨1, ![512]⟩
abbrev S_ : Shape := ⟨0, ![]⟩

class Facts : Prop where
  bcast_S_S3x16x512x512 : S_.BroadcastsInDim S3x16x512x512 (![] : Fin 0 → Fin S3x16x512x512.rank)
  reducesTo_S3x16x512x512_S_d0_1_2_3 : S3x16x512x512.ReducesTo [0, 1, 2, 3] S_
  h_S_ : 0 < S_.numel
  bcast_S_S16x512x512 : S_.BroadcastsInDim S16x512x512 (![] : Fin 0 → Fin S16x512x512.rank)
  reducesTo_S16x512x512_S_d0_1_2 : S16x512x512.ReducesTo [0, 1, 2] S_
  bcast_S_S6x512x512 : S_.BroadcastsInDim S6x512x512 (![] : Fin 0 → Fin S6x512x512.rank)
  reducesTo_S6x512x512_S_d0_1_2 : S6x512x512.ReducesTo [0, 1, 2] S_
  bcast_S_S6x512 : S_.BroadcastsInDim S6x512 (![] : Fin 0 → Fin S6x512.rank)
  reducesTo_S6x512_S_d0_1 : S6x512.ReducesTo [0, 1] S_
  bcast_S_S512x3072 : S_.BroadcastsInDim S512x3072 (![] : Fin 0 → Fin S512x3072.rank)
  reducesTo_S512x3072_S_d0_1 : S512x3072.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg6 : FVec F S512x3072 .f32) (main_arg7 : FVec F S512 .f32) (main_v13 : IVec S_ 1) (main_v16 : IVec S6x512 1) : IVec S_ 1 :=
  let main_c_5 : IVec S_ 1 := constantI S_ 1 1#1
  let main_v17 : IVec S_ 1 := (fun x v => Host.reduce IntOp.andi x v reducesTo_S6x512_S_d0_1 h_S_) main_v16 main_c_5
  let main_v18 : IVec S_ 1 := andi main_v13 main_v17
  let main_v19 : FVec F S512x3072 .f32 := Host.absf main_arg6
  let main_cst_6 : FVec F S_ .f32 := constant S_ .f32 0x7F800000#32
  let main_v20 : FVec F S512x3072 .f32 := broadcastInDim S512x3072 ![] bcast_S_S512x3072 main_cst_6
  let main_v21 : IVec S512x3072 1 := cmpf .olt main_v19 main_v20
  let main_c_7 : IVec S_ 1 := constantI S_ 1 1#1
  let main_v22 : IVec S_ 1 := (fun x v => Host.reduce IntOp.andi x v reducesTo_S512x3072_S_d0_1 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S3x16x512x512 .f32) (main_arg1 : FVec F S16x512x512 .f32) (main_arg2 : IVec S16x512 1) (main_arg3 : IVec S16x512 1) (main_arg4 : FVec F S6x512x512 .f32) (main_arg5 : FVec F S6x512 .f32) (main_arg6 : FVec F S512x3072 .f32) (main_arg7 : FVec F S512 .f32) : IVec S_ 1 :=
  let main_v0 : FVec F S3x16x512x512 .f32 := Host.absf main_arg0
  let main_cst : FVec F S_ .f32 := constant S_ .f32 0x7F800000#32
  let main_v1 : FVec F S3x16x512x512 .f32 := broadcastInDim S3x16x512x512 ![] bcast_S_S3x16x512x512 main_cst
  let main_v2 : IVec S3x16x512x512 1 := cmpf .olt main_v0 main_v1
  let main_c : IVec S_ 1 := constantI S_ 1 1#1
  let main_v3 : IVec S_ 1 := (fun x v => Host.reduce IntOp.andi x v reducesTo_S3x16x512x512_S_d0_1_2_3 h_S_) main_v2 main_c
  let main_v4 : FVec F S16x512x512 .f32 := Host.absf main_arg1
  let main_cst_0 : FVec F S_ .f32 := constant S_ .f32 0x7F800000#32
  let main_v5 : FVec F S16x512x512 .f32 := broadcastInDim S16x512x512 ![] bcast_S_S16x512x512 main_cst_0
  let main_v6 : IVec S16x512x512 1 := cmpf .olt main_v4 main_v5
  let main_c_1 : IVec S_ 1 := constantI S_ 1 1#1
  let main_v7 : IVec S_ 1 := (fun x v => Host.reduce IntOp.andi x v reducesTo_S16x512x512_S_d0_1_2 h_S_) main_v6 main_c_1
  let main_v8 : IVec S_ 1 := andi main_v3 main_v7
  let main_v9 : FVec F S6x512x512 .f32 := Host.absf main_arg4
  let main_cst_2 : FVec F S_ .f32 := constant S_ .f32 0x7F800000#32
  let main_v10 : FVec F S6x512x512 .f32 := broadcastInDim S6x512x512 ![] bcast_S_S6x512x512 main_cst_2
  let main_v11 : IVec S6x512x512 1 := cmpf .olt main_v9 main_v10
  let main_c_3 : IVec S_ 1 := constantI S_ 1 1#1
  let main_v12 : IVec S_ 1 := (fun x v => Host.reduce IntOp.andi x v reducesTo_S6x512x512_S_d0_1_2 h_S_) main_v11 main_c_3
  let main_v13 : IVec S_ 1 := andi main_v8 main_v12
  let main_v14 : FVec F S6x512 .f32 := Host.absf main_arg5
  let main_cst_4 : FVec F S_ .f32 := constant S_ .f32 0x7F800000#32
  let main_v15 : FVec F S6x512 .f32 := broadcastInDim S6x512 ![] bcast_S_S6x512 main_cst_4
  let main_v16 : IVec S6x512 1 := cmpf .olt main_v14 main_v15
  fn_part1 (F := F) main_arg6 main_arg7 main_v13 main_v16
-- ==== Kernel.lean ====
abbrev S3x16x512x512 : Shape := ⟨4, ![3, 16, 512, 512]⟩
abbrev S16x512x512 : Shape := ⟨3, ![16, 512, 512]⟩
abbrev S16x512 : Shape := ⟨2, ![16, 512]⟩
abbrev S6x512x512 : Shape := ⟨3, ![6, 512, 512]⟩
abbrev S6x512 : Shape := ⟨2, ![6, 512]⟩
abbrev S512x3072 : Shape := ⟨2, ![512, 3072]⟩
abbrev S512 : Shape := ⟨1, ![512]⟩
abbrev S3072x512 : Shape := ⟨2, ![3072, 512]⟩
abbrev S3x1x512x512 : Shape := ⟨4, ![3, 1, 512, 512]⟩
abbrev S1x512x512 : Shape := ⟨3, ![1, 512, 512]⟩
abbrev S512x512 : Shape := ⟨2, ![512, 512]⟩
abbrev S1x1x512x512 : Shape := ⟨4, ![1, 1, 512, 512]⟩
abbrev S512x1 : Shape := ⟨2, ![512, 1]⟩
abbrev S1x512 : Shape := ⟨2, ![1, 512]⟩

abbrev nBuf : Space → Nat
  | .hbm => 13
  | .vmem => 11
  | .smem => 0
  | _ => 0

abbrev bufTy : (tb : Table) → Fin (tcTables nBuf tb) → BufTy
  | .hbm, ⟨0, _⟩ => ⟨S3x16x512x512, .f32⟩
  | .hbm, ⟨1, _⟩ => ⟨S16x512x512, .f32⟩
  | .hbm, ⟨2, _⟩ => ⟨S16x512, .i1⟩
  | .hbm, ⟨3, _⟩ => ⟨S16x512, .i1⟩
  | .hbm, ⟨4, _⟩ => ⟨S6x512x512, .f32⟩
  | .hbm, ⟨5, _⟩ => ⟨S6x512, .f32⟩
  | .hbm, ⟨6, _⟩ => ⟨S512x3072, .f32⟩
  | .hbm, ⟨7, _⟩ => ⟨S512, .f32⟩
  | .hbm, ⟨8, _⟩ => ⟨S6x512x512, .f32⟩
  | .hbm, ⟨9, _⟩ => ⟨S6x512x512, .bf16⟩
  | .hbm, ⟨10, _⟩ => ⟨S3072x512, .f32⟩
  | .hbm, ⟨11, _⟩ => ⟨S3072x512, .bf16⟩
  | .hbm, ⟨12, _⟩ => ⟨S16x512x512, .f32⟩
  | .local _ .vmem, ⟨0, _⟩ => ⟨S3x1x512x512, .f32⟩
  | .local _ .vmem, ⟨1, _⟩ => ⟨S3x1x512x512, .f32⟩
  | .local _ .vmem, ⟨2, _⟩ => ⟨S1x512x512, .f32⟩
  | .local _ .vmem, ⟨3, _⟩ => ⟨S1x512x512, .f32⟩
  | .local _ .vmem, ⟨4, _⟩ => ⟨S6x512x512, .bf16⟩
  | .local _ .vmem, ⟨5, _⟩ => ⟨S6x512, .f32⟩
  | .local _ .vmem, ⟨6, _⟩ => ⟨S3072x512, .bf16⟩
  | .local _ .vmem, ⟨7, _⟩ => ⟨S512, .f32⟩
  | .local _ .vmem, ⟨8, _⟩ => ⟨S1x512x512, .f32⟩
  | .local _ .vmem, ⟨9, _⟩ => ⟨S1x512x512, .f32⟩
  | .local _ .vmem, ⟨10, _⟩ => ⟨S512x3072, .bf16⟩
  | _, _ => ⟨S3x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S6x512x512_S6x512x512_0_2_1 : S6x512x512.Transposes [0, 2, 1] S6x512x512
  bitsLt_bf16_f32 : FTy.bits .bf16 < FTy.bits .f32
  transposes_S512x3072_S3072x512_1_0 : S512x3072.Transposes [1, 0] S3072x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S3x1x512x512_S1x1x512x512_0_0_0_0 : ∀ a, (![0, 0, 0, 0] : Fin 4 → Nat) a + S1x1x512x512.size a ≤ S3x1x512x512.size a
  h_S1x1x512x512 : 0 < S1x1x512x512.numel
  shapeCasts_S1x1x512x512_S512x512 : S1x1x512x512.ShapeCasts S512x512
  reduces_S512x512_S512 : S512x512.Reduces [1] S512
  shapeCasts_S512_S512x1 : S512.ShapeCasts S512x1
  inb_S6x512x512_S1x512x512_0_0_0 : ∀ a, (![0, 0, 0] : Fin 3 → Nat) a + S1x512x512.size a ≤ S6x512x512.size a
  inb_S6x512_S1x512_0_0 : ∀ a, (![0, 0] : Fin 2 → Nat) a + S1x512.size a ≤ S6x512.size a
  h_S1x512 : 0 < S1x512.numel
  shapeCasts_S1x512_S512 : S1x512.ShapeCasts S512
  shapeCasts_S512_S1x512 : S512.ShapeCasts S1x512
  broadcasts_S1x512_S512x512 : S1x512.Broadcasts S512x512
  broadcasts_S512x1_S512x512 : S512x1.Broadcasts S512x512
  inb_S512x3072_S512x512_0_0 : ∀ a, (![0, 0] : Fin 2 → Nat) a + S512x512.size a ≤ S512x3072.size a
  h_S512x512 : 0 < S512x512.numel
  shapeCasts_S512x512_S512x512 : S512x512.ShapeCasts S512x512
  packedbf16_S512x3072_S512x512_0_0 : (Rect.unit (s := S512x3072) ![0, 0] S512x512.size inb_S512x3072_S512x512_0_0).PackedRows (EltTy.packing .bf16)
  inb_S6x512x512_S1x512x512_1_0_0 : ∀ a, (![1, 0, 0] : Fin 3 → Nat) a + S1x512x512.size a ≤ S6x512x512.size a
  inb_S6x512_S1x512_1_0 : ∀ a, (![1, 0] : Fin 2 → Nat) a + S1x512.size a ≤ S6x512.size a
  inb_S512x3072_S512x512_0_512 : ∀ a, (![0, 512] : Fin 2 → Nat) a + S512x512.size a ≤ S512x3072.size a
  packedbf16_S512x3072_S512x512_0_512 : (Rect.unit (s := S512x3072) ![0, 512] S512x512.size inb_S512x3072_S512x512_0_512).PackedRows (EltTy.packing .bf16)
  inb_S3x1x512x512_S1x1x512x512_1_0_0_0 : ∀ a, (![1, 0, 0, 0] : Fin 4 → Nat) a + S1x1x512x512.size a ≤ S3x1x512x512.size a
  inb_S6x512x512_S1x512x512_2_0_0 : ∀ a, (![2, 0, 0] : Fin 3 → Nat) a + S1x512x512.size a ≤ S6x512x512.size a
  inb_S6x512_S1x512_2_0 : ∀ a, (![2, 0] : Fin 2 → Nat) a + S1x512.size a ≤ S6x512.size a
  inb_S512x3072_S512x512_0_1024 : ∀ a, (![0, 1024] : Fin 2 → Nat) a + S512x512.size a ≤ S512x3072.size a
  packedbf16_S512x3072_S512x512_0_1024 : (Rect.unit (s := S512x3072) ![0, 1024] S512x512.size inb_S512x3072_S512x512_0_1024).PackedRows (EltTy.packing .bf16)
  inb_S6x512x512_S1x512x512_3_0_0 : ∀ a, (![3, 0, 0] : Fin 3 → Nat) a + S1x512x512.size a ≤ S6x512x512.size a
  inb_S6x512_S1x512_3_0 : ∀ a, (![3, 0] : Fin 2 → Nat) a + S1x512.size a ≤ S6x512.size a
  inb_S512x3072_S512x512_0_1536 : ∀ a, (![0, 1536] : Fin 2 → Nat) a + S512x512.size a ≤ S512x3072.size a
  packedbf16_S512x3072_S512x512_0_1536 : (Rect.unit (s := S512x3072) ![0, 1536] S512x512.size inb_S512x3072_S512x512_0_1536).PackedRows (EltTy.packing .bf16)
  inb_S3x1x512x512_S1x1x512x512_2_0_0_0 : ∀ a, (![2, 0, 0, 0] : Fin 4 → Nat) a + S1x1x512x512.size a ≤ S3x1x512x512.size a
  inb_S6x512x512_S1x512x512_4_0_0 : ∀ a, (![4, 0, 0] : Fin 3 → Nat) a + S1x512x512.size a ≤ S6x512x512.size a
  inb_S6x512_S1x512_4_0 : ∀ a, (![4, 0] : Fin 2 → Nat) a + S1x512.size a ≤ S6x512.size a
  inb_S512x3072_S512x512_0_2048 : ∀ a, (![0, 2048] : Fin 2 → Nat) a + S512x512.size a ≤ S512x3072.size a
  packedbf16_S512x3072_S512x512_0_2048 : (Rect.unit (s := S512x3072) ![0, 2048] S512x512.size inb_S512x3072_S512x512_0_2048).PackedRows (EltTy.packing .bf16)
  inb_S6x512x512_S1x512x512_5_0_0 : ∀ a, (![5, 0, 0] : Fin 3 → Nat) a + S1x512x512.size a ≤ S6x512x512.size a
  inb_S6x512_S1x512_5_0 : ∀ a, (![5, 0] : Fin 2 → Nat) a + S1x512.size a ≤ S6x512.size a
  inb_S512x3072_S512x512_0_2560 : ∀ a, (![0, 2560] : Fin 2 → Nat) a + S512x512.size a ≤ S512x3072.size a
  packedbf16_S512x3072_S512x512_0_2560 : (Rect.unit (s := S512x3072) ![0, 2560] S512x512.size inb_S512x3072_S512x512_0_2560).PackedRows (EltTy.packing .bf16)
  inb_S512x3072_S512x3072_0_0 : ∀ a, (![0, 0] : Fin 2 → Nat) a + S512x3072.size a ≤ S512x3072.size a
  h_S512x3072 : 0 < S512x3072.numel
  inb_S3072x512_S3072x512_0_0 : ∀ a, (![0, 0] : Fin 2 → Nat) a + S3072x512.size a ≤ S3072x512.size a
  h_S3072x512 : 0 < S3072x512.numel
  shapeCasts_S3072x512_S3072x512 : S3072x512.ShapeCasts S3072x512
  inb_S512_S512_0 : ∀ a, (![0] : Fin 1 → Nat) a + S512.size a ≤ S512.size a
  h_S512 : 0 < S512.numel
  shapeCasts_S512x512_S1x512x512 : S512x512.ShapeCasts S1x512x512
  dot_S512x512_S512x512_S512x512_1_0_0_1_n_n_wf : DotDims.WF S512x512 S512x512 S512x512 [1] [0] [0] [1] [] []
  dot_S512x3072_S3072x512_S512x512_1_0_0_1_n_n_wf : DotDims.WF S512x3072 S3072x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x1x512x512.size a ≤ S3x16x512x512.size a
  hwx0_0 : ∀ i : grid0.Coords, EltTy.bits .f32 = 32 ∨ (Rect.block (s := S3x16x512x512) S3x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S16x512x512.size a
  hwx0_1 : ∀ i : grid0.Coords, EltTy.bits .f32 = 32 ∨ (Rect.block (s := S16x512x512) S1x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x512x512.size a ≤ S6x512x512.size a
  hwx0_2 : ∀ i : grid0.Coords, EltTy.bits .bf16 = 32 ∨ (Rect.block (s := S6x512x512) S6x512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x512.size a ≤ S6x512.size a
  hwx0_3 : ∀ i : grid0.Coords, EltTy.bits .f32 = 32 ∨ (Rect.block (s := S6x512) S6x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3072x512.size a ≤ S3072x512.size a
  hwx0_4 : ∀ i : grid0.Coords, EltTy.bits .bf16 = 32 ∨ (Rect.block (s := S3072x512) S3072x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x512.size a ≤ S16x512x512.size a
  hwx0_6 : ∀ i : grid0.Coords, EltTy.bits .f32 = 32 ∨ (Rect.block (s := S16x512x512) S1x512x512.size (cc0_transform_6 i) (hinb0_6 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x3072_S3072x512_S512x512_1_0_0_1_n_n : DotDims S512x3072 S3072x512 S512x512 where
  lhsContracting := [1]
  rhsContracting := [0]
  lhsNonContracting := [0]
  rhsNonContracting := [1]
  lhsBatch := []
  rhsBatch := []
  wf := dot_S512x3072_S3072x512_S512x512_1_0_0_1_n_n_wf

abbrev win0_0 : Pipeline.Window sig grid0 :=
  Pipeline.Window.ofSpec (Memref.whole main_arg0) S3x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S6x512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S6x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S3072x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S3x16x512x512 : Shape := ⟨4, ![3, 16, 512, 512]⟩
abbrev S16x512x512 : Shape := ⟨3, ![16, 512, 512]⟩
abbrev S16x512 : Shape := ⟨2, ![16, 512]⟩
abbrev S6x512x512 : Shape := ⟨3, ![6, 512, 512]⟩
abbrev S6x512 : Shape := ⟨2, ![6, 512]⟩
abbrev S512x3072 : Shape := ⟨2, ![512, 3072]⟩
abbrev S512 : Shape := ⟨1, ![512]⟩
abbrev S1x16x512x512 : Shape := ⟨4, ![1, 16, 512, 512]⟩
abbrev S_ : Shape := ⟨0, ![]⟩
abbrev S16x512x1 : Shape := ⟨3, ![16, 512, 1]⟩
abbrev S1x512x512 : Shape := ⟨3, ![1, 512, 512]⟩
abbrev S512x512 : Shape := ⟨2, ![512, 512]⟩
abbrev S1x512 : Shape := ⟨2, ![1, 512]⟩
abbrev S1x1x512 : Shape := ⟨3, ![1, 1, 512]⟩
abbrev S16x512x1024 : Shape := ⟨3, ![16, 512, 1024]⟩
abbrev S16x512x3072 : Shape := ⟨3, ![16, 512, 3072]⟩

abbrev nBuf : Space → Nat
  | .hbm => 149
  | .vmem => 0
  | .smem => 0
  | _ => 0

abbrev hbmTy0_0 (i : Nat) : BufTy := match i % 128 with
  | 0 => ⟨S3x16x512x512, .f32⟩
  | 1 => ⟨S16x512x512, .f32⟩
  | 2 => ⟨S16x512, .i1⟩
  | 3 => ⟨S16x512, .i1⟩
  | 4 => ⟨S6x512x512, .f32⟩
  | 5 => ⟨S6x512, .f32⟩
  | 6 => ⟨S512x3072, .f32⟩
  | 7 => ⟨S512, .f32⟩
  | 8 => ⟨S1x16x512x512, .f32⟩
  | 9 => ⟨S16x512x512, .f32⟩
  | 10 => ⟨S_, .f32⟩
  | 11 => ⟨S16x512, .f32⟩
  | 12 => ⟨S16x512x1, .f32⟩
  | 13 => ⟨S_, .f32⟩
  | 14 => ⟨S16x512x1, .f32⟩
  | 15 => ⟨S16x512x1, .f32⟩
  | 16 => ⟨S16x512x512, .f32⟩
  | 17 => ⟨S16x512x512, .f32⟩
  | 18 => ⟨S1x512x512, .f32⟩
  | 19 => ⟨S512x512, .f32⟩
  | 20 => ⟨S16x512x512, .f32⟩
  | 21 => ⟨S1x512, .f32⟩
  | 22 => ⟨S512, .f32⟩
  | 23 => ⟨S_, .f32⟩
  | 24 => ⟨S512, .f32⟩
  | 25 => ⟨S512, .f32⟩
  | 26 => ⟨S1x1x512, .f32⟩
  | 27 => ⟨S16x512x512, .f32⟩
  | 28 => ⟨S16x512x512, .f32⟩
  | 29 => ⟨S16x512x512, .f32⟩
  | 30 => ⟨S16x512x512, .f32⟩
  | 31 => ⟨S_, .f32⟩
  | 32 => ⟨S16x512x512, .f32⟩
  | 33 => ⟨S16x512x512, .f32⟩
  | 34 => ⟨S16x512x512, .f32⟩
  | 35 => ⟨S16x512x512, .f32⟩
  | 36 => ⟨S1x512x512, .f32⟩
  | 37 => ⟨S512x512, .f32⟩
  | 38 => ⟨S16x512x512, .f32⟩
  | 39 => ⟨S1x512, .f32⟩
  | 40 => ⟨S512, .f32⟩
  | 41 => ⟨S_, .f32⟩
  | 42 => ⟨S512, .f32⟩
  | 43 => ⟨S512, .f32⟩
  | 44 => ⟨S1x1x512, .f32⟩
  | 45 => ⟨S16x512x512, .f32⟩
  | 46 => ⟨S16x512x512, .f32⟩
  | 47 => ⟨S16x512x512, .f32⟩
  | 48 => ⟨S16x512x512, .f32⟩
  | 49 => ⟨S_, .f32⟩
  | 50 => ⟨S16x512x512, .f32⟩
  | 51 => ⟨S16x512x512, .f32⟩
  | 52 => ⟨S16x512x1024, .f32⟩
  | 53 => ⟨S1x16x512x512, .f32⟩
  | 54 => ⟨S16x512x512, .f32⟩
  | 55 => ⟨S_, .f32⟩
  | 56 => ⟨S16x512, .f32⟩
  | 57 => ⟨S16x512x1, .f32⟩
  | 58 => ⟨S_, .f32⟩
  | 59 => ⟨S16x512x1, .f32⟩
  | 60 => ⟨S16x512x1, .f32⟩
  | 61 => ⟨S16x512x512, .f32⟩
  | 62 => ⟨S16x512x512, .f32⟩
  | 63 => ⟨S1x512x512, .f32⟩
  | 64 => ⟨S512x512, .f32⟩
  | 65 => ⟨S16x512x512, .f32⟩
  | 66 => ⟨S1x512, .f32⟩
  | 67 => ⟨S512, .f32⟩
  | 68 => ⟨S_, .f32⟩
  | 69 => ⟨S512, .f32⟩
  | 70 => ⟨S512, .f32⟩
  | 71 => ⟨S1x1x512, .f32⟩
  | 72 => ⟨S16x512x512, .f32⟩
  | 73 => ⟨S16x512x512, .f32⟩
  | 74 => ⟨S16x512x512, .f32⟩
  | 75 => ⟨S16x512x512, .f32⟩
  | 76 => ⟨S_, .f32⟩
  | 77 => ⟨S16x512x512, .f32⟩
  | 78 => ⟨S16x512x512, .f32⟩
  | 79 => ⟨S16x512x512, .f32⟩
  | 80 => ⟨S16x512x512, .f32⟩
  | 81 => ⟨S1x512x512, .f32⟩
  | 82 => ⟨S512x512, .f32⟩
  | 83 => ⟨S16x512x512, .f32⟩
  | 84 => ⟨S1x512, .f32⟩
  | 85 => ⟨S512, .f32⟩
  | 86 => ⟨S_, .f32⟩
  | 87 => ⟨S512, .f32⟩
  | 88 => ⟨S512, .f32⟩
  | 89 => ⟨S1x1x512, .f32⟩
  | 90 => ⟨S16x512x512, .f32⟩
  | 91 => ⟨S16x512x512, .f32⟩
  | 92 => ⟨S16x512x512, .f32⟩
  | 93 => ⟨S16x512x512, .f32⟩
  | 94 => ⟨S_, .f32⟩
  | 95 => ⟨S16x512x512, .f32⟩
  | 96 => ⟨S16x512x512, .f32⟩
  | 97 => ⟨S16x512x1024, .f32⟩
  | 98 => ⟨S1x16x512x512, .f32⟩
  | 99 => ⟨S16x512x512, .f32⟩
  | 100 => ⟨S_, .f32⟩
  | 101 => ⟨S16x512, .f32⟩
  | 102 => ⟨S16x512x1, .f32⟩
  | 103 => ⟨S_, .f32⟩
  | 104 => ⟨S16x512x1, .f32⟩
  | 105 => ⟨S16x512x1, .f32⟩
  | 106 => ⟨S16x512x512, .f32⟩
  | 107 => ⟨S16x512x512, .f32⟩
  | 108 => ⟨S1x512x512, .f32⟩
  | 109 => ⟨S512x512, .f32⟩
  | 110 => ⟨S16x512x512, .f32⟩
  | 111 => ⟨S1x512, .f32⟩
  | 112 => ⟨S512, .f32⟩
  | 113 => ⟨S_, .f32⟩
  | 114 => ⟨S512, .f32⟩
  | 115 => ⟨S512, .f32⟩
  | 116 => ⟨S1x1x512, .f32⟩
  | 117 => ⟨S16x512x512, .f32⟩
  | 118 => ⟨S16x512x512, .f32⟩
  | 119 => ⟨S16x512x512, .f32⟩
  | 120 => ⟨S16x512x512, .f32⟩
  | 121 => ⟨S_, .f32⟩
  | 122 => ⟨S16x512x512, .f32⟩
  | 123 => ⟨S16x512x512, .f32⟩
  | 124 => ⟨S16x512x512, .f32⟩
  | 125 => ⟨S16x512x512, .f32⟩
  | 126 => ⟨S1x512x512, .f32⟩
  | 127 => ⟨S512x512, .f32⟩
  | _ => ⟨S3x16x512x512, .f32⟩

abbrev hbmTy0_1 (i : Nat) : BufTy := match i % 128 with
  | 0 => ⟨S16x512x512, .f32⟩
  | 1 => ⟨S1x512, .f32⟩
  | 2 => ⟨S512, .f32⟩
  | 3 => ⟨S_, .f32⟩
  | 4 => ⟨S512, .f32⟩
  | 5 => ⟨S512, .f32⟩
  | 6 => ⟨S1x1x512, .f32⟩
  | 7 => ⟨S16x512x512, .f32⟩
  | 8 => ⟨S16x512x512, .f32⟩
  | 9 => ⟨S16x512x512, .f32⟩
  | 10 => ⟨S16x512x512, .f32⟩
  | 11 => ⟨S_, .f32⟩
  | 12 => ⟨S16x512x512, .f32⟩
  | 13 => ⟨S16x512x512, .f32⟩
  | 14 => ⟨S16x512x1024, .f32⟩
  | 15 => ⟨S16x512x3072, .f32⟩
  | 16 => ⟨S16x512x512, .f32⟩
  | 17 => ⟨S1x1x512, .f32⟩
  | 18 => ⟨S16x512x512, .f32⟩
  | 19 => ⟨S16x512x512, .f32⟩
  | 20 => ⟨S16x512x512, .f32⟩
  | _ => ⟨S3x16x512x512, .f32⟩

abbrev hbmTy (i : Nat) : BufTy := match i / 128 with
  | 0 => hbmTy0_0 i
  | 1 => hbmTy0_1 i
  | _ => ⟨S3x16x512x512, .f32⟩

abbrev bufTy : (tb : Table) → Fin (tcTables nBuf tb) → BufTy
  | .hbm, ⟨i, _⟩ => hbmTy i
  | _, _ => ⟨S3x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call1_cst : Ref sig .tc := ⟨.hbm, 49, rfl⟩
abbrev main_call1_v0 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_3 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_5 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_call2_cst : Ref sig .tc := ⟨.hbm, 76, rfl⟩
abbrev main_call2_v0 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_6 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call3_cst : Ref sig .tc := ⟨.hbm, 94, rfl⟩
abbrev main_call3_v0 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_7 : Ref sig .tc := ⟨.hbm, 100, rfl⟩
abbrev main_v76 : Ref sig .tc := ⟨.hbm, 101, rfl⟩
abbrev main_v77 : Ref sig .tc := ⟨.hbm, 102, rfl⟩
abbrev main_cst_8 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_9 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_call4_cst : Ref sig .tc := ⟨.hbm, 121, rfl⟩
abbrev main_call4_v0 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_10 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_call5_cst : Ref sig .tc := ⟨.hbm, 139, rfl⟩
abbrev main_call5_v0 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩

abbrev nD : Nat := 1
abbrev τ : Topo := Topo.v7x

variable {F : FTy → Type} [FloatOps F]

class Facts₀ : Prop where
  slices_S3x16x512x512_S1x16x512x512_0_0_0_0 : S3x16x512x512.Slices ![0, 0, 0, 0] S1x16x512x512
  shapeCasts_S1x16x512x512_S16x512x512 : S1x16x512x512.ShapeCasts S16x512x512
  reducesTo_S16x512x512_S16x512_d2 : S16x512x512.ReducesTo [2] S16x512
  h_S_ : 0 < S_.numel
  bcast_S16x512_S16x512x1_0_1 : S16x512.BroadcastsInDim S16x512x1 (![0, 1] : Fin 2 → Fin S16x512x1.rank)
  bcast_S_S16x512x1 : S_.BroadcastsInDim S16x512x1 (![] : Fin 0 → Fin S16x512x1.rank)
  slices_S6x512x512_S1x512x512_0_0_0 : S6x512x512.Slices ![0, 0, 0] S1x512x512
  shapeCasts_S1x512x512_S512x512 : S1x512x512.ShapeCasts S512x512
  slices_S6x512_S1x512_0_0 : S6x512.Slices ![0, 0] S1x512
  shapeCasts_S1x512_S512 : S1x512.ShapeCasts S512
  bcast_S_S512 : S_.BroadcastsInDim S512 (![] : Fin 0 → Fin S512.rank)
  bcast_S512_S1x1x512_2 : S512.BroadcastsInDim S1x1x512 (![2] : Fin 1 → Fin S1x1x512.rank)
  bcast_S1x1x512_S16x512x512_0_1_2 : S1x1x512.BroadcastsInDim S16x512x512 (![0, 1, 2] : Fin 3 → Fin S16x512x512.rank)
  bcast_S16x512x1_S16x512x512_0_1_2 : S16x512x1.BroadcastsInDim S16x512x512 (![0, 1, 2] : Fin 3 → Fin S16x512x512.rank)
  bcast_S_S16x512x512 : S_.BroadcastsInDim S16x512x512 (![] : Fin 0 → Fin S16x512x512.rank)
  slices_S6x512x512_S1x512x512_1_0_0 : S6x512x512.Slices ![1, 0, 0] S1x512x512
  slices_S6x512_S1x512_1_0 : S6x512.Slices ![1, 0] S1x512
  concatenates_S16x512x512_S16x512x512_S16x512x1024_d2 : Shape.Concatenates [S16x512x512, S16x512x512] S16x512x1024 2
  slices_S3x16x512x512_S1x16x512x512_1_0_0_0 : S3x16x512x512.Slices ![1, 0, 0, 0] S1x16x512x512
  slices_S6x512x512_S1x512x512_2_0_0 : S6x512x512.Slices ![2, 0, 0] S1x512x512
  slices_S6x512_S1x512_2_0 : S6x512.Slices ![2, 0] S1x512
  slices_S6x512x512_S1x512x512_3_0_0 : S6x512x512.Slices ![3, 0, 0] S1x512x512
  slices_S6x512_S1x512_3_0 : S6x512.Slices ![3, 0] S1x512
  slices_S3x16x512x512_S1x16x512x512_2_0_0_0 : S3x16x512x512.Slices ![2, 0, 0, 0] S1x16x512x512
  slices_S6x512x512_S1x512x512_4_0_0 : S6x512x512.Slices ![4, 0, 0] S1x512x512
  slices_S6x512_S1x512_4_0 : S6x512.Slices ![4, 0] S1x512
  slices_S6x512x512_S1x512x512_5_0_0 : S6x512x512.Slices ![5, 0, 0] S1x512x512
  slices_S6x512_S1x512_5_0 : S6x512.Slices ![5, 0] S1x512
  concatenates_S16x512x1024_S16x512x1024_S16x512x1024_S16x512x3072_d2 : Shape.Concatenates [S16x512x1024, S16x512x1024, S16x512x1024] S16x512x3072 2
  dot_S16x512x512_S16x512x512_S16x512x512_2_1_1_2_0_0_wf : DotDims.WF S16x512x512 S16x512x512 S16x512x512 [2] [1] [1] [2] [0] [0]
  dot_S16x512x512_S512x512_S16x512x512_2_1_01_0_n_n_wf : DotDims.WF S16x512x512 S512x512 S16x512x512 [2] [1] [0, 1] [0] [] []
  dot_S16x512x3072_S512x3072_S16x512x512_2_1_01_0_n_n_wf : DotDims.WF S16x512x3072 S512x3072 S16x512x512 [2] [1] [0, 1] [0] [] []

variable [Facts₀]

def dot_S16x512x512_S16x512x512_S16x512x512_2_1_1_2_0_0 : DotDims S16x512x512 S16x512x512 S16x512x512 where
  lhsContracting := [2]
  rhsContracting := [1]
  lhsNonContracting := [1]
  rhsNonContracting := [2]
  lhsBatch := [0]
  rhsBatch := [0]
  wf := dot_S16x512x512_S16x512x512_S16x512x512_2_1_1_2_0_0_wf
def dot_S16x512x512_S512x512_S16x512x512_2_1_01_0_n_n : DotDims S16x512x512 S512x512 S16x512x512 where
  lhsContracting := [2]
  rhsContracting := [1]
  lhsNonContracting := [0, 1]
  rhsNonContracting := [0]
  lhsBatch := []
  rhsBatch := []
  wf := dot_S16x512x512_S512x512_S16x512x512_2_1_01_0_n_n_wf
def dot_S16x512x3072_S512x3072_S16x512x512_2_1_01_0_n_n : DotDims S16x512x3072 S512x3072 S16x512x512 where
  lhsContracting := [2]
  rhsContracting := [1]
  lhsNonContracting := [0, 1]
  rhsNonContracting := [0]
  lhsBatch := []
  rhsBatch := []
  wf := dot_S16x512x3072_S512x3072_S16x512x512_2_1_01_0_n_n_wf

class Facts : Prop extends Facts₀ where

variable [Facts]
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.KLib.lean ====
/-
  Small readings used on the kernel's side, at the ideal values and over literal coordinates.

  A load through a unit-stride rectangle reads the contents at the rectangle's offsets plus the position; the three
  shape changes a row-sum column meets (`[1, 1, a, b] → [a, b]`, `[a] → [a, 1]`, a column `[a, 1]` broadcast over
  `b` columns); and a matrix unit's product into zeros of two operands of any float formats, which over the extended
  reals is the textbook sum over the contracted index.
-/
import Idealize.ShloMosaic.Lib.ValueIdx
import Idealize.ShloMosaic.Lib.ValueLayout
import Idealize.ShloMosaic.Lib.Pipeline.Value
import Idealize.ShloMosaic.PureOps.Ideal.Laws
import proofs.«173532_j90305982366173_1_alg».proof.Proof.LibAffineRows

noncomputable section

namespace Cert.KLib

open Idealize.ShloMosaic Idealize.ShloMosaic.ValueIdx

/-- A load through the unit-stride rectangle at offsets `off` reads, at position `x`, the contents at `off + x`. -/
theorem ld_unit_apply {β : Type} {S : Shape} (X : S.Idx → β) (off size : Fin S.rank → ℕ)
    (inb : ∀ a, off a + size a ≤ S.size a) (x : (Rect.unit off size inb).shape.Idx) (k : S.Idx)
    (hk : ∀ a, (k a).val = off a + (x a).val) : X ((Rect.unit off size inb).emb x) = X k := by
  refine congrArg X (funext fun a => Fin.ext ?_)
  show off a + 1 * (x a).val = (k a).val
  rw [hk a, Nat.one_mul]

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable {R K M : ℕ}

/-- A matrix unit's product into zeros, at `(r, c)`: the textbook sum, whatever the operands' float formats. -/
theorem matmul_zero_apply {φ₁ φ₂ : FTy} {d : DotDims ⟨2, ![R, K]⟩ ⟨2, ![K, M]⟩ ⟨2, ![R, M]⟩} (h : Cert.Lib.PlainDot d)
    (x : FVec Ideal ⟨2, ![R, K]⟩ φ₁) (w : FVec Ideal ⟨2, ![K, M]⟩ φ₂) (r : Fin R) (c : Fin M) :
    matmul d none x w (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

end Cert.KLib

end
-- ==== Proof.KDots.lean ====
/-
  The two matrix products of the kernel's body are plain products: one contracted index, the left operand's column
  and the right operand's row; the result's row is the left operand's row, its column the right operand's column.
-/
import proofs.«173532_j90305982366173_1_alg».proof.Proof.Gen.KernelIdeal
import proofs.«173532_j90305982366173_1_alg».proof.Proof.LibAffineRows
import Idealize.ShloMosaic.Lib.ValueIdx

noncomputable section

namespace Cert.KernelIdeal.Dots

open Idealize.ShloMosaic Idealize.ShloMosaic.ValueIdx Cert.KernelIdeal

theorem sq_l0 (i : S512x512.Idx) (q : dot_S512x512_S512x512_S512x512_1_0_0_1_n_n.contr.Idx) : (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem sq_l1 (i : S512x512.Idx) (q : dot_S512x512_S512x512_S512x512_1_0_0_1_n_n.contr.Idx) : (dot_S512x512_S512x512_S512x512_1_0_0_1_n_n.lhsIdx i q 1).val = (q ⟨0, by decide⟩).val :=
  dot_S512x512_S512x512_S512x512_1_0_0_1_n_n.lhsIdx_val_of_single rfl i q
theorem sq_r0 (i : S512x512.Idx) (q : dot_S512x512_S512x512_S512x512_1_0_0_1_n_n.contr.Idx) : (dot_S512x512_S512x512_S512x512_1_0_0_1_n_n.rhsIdx i q 0).val = (q ⟨0, by decide⟩).val :=
  dot_S512x512_S512x512_S512x512_1_0_0_1_n_n.rhsIdx_val_of_single rfl i q
theorem sq_r1 (i : S512x512.Idx) (q : dot_S512x512_S512x512_S512x512_1_0_0_1_n_n.contr.Idx) : (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The square product `[512, 512] · [512, 512]`. -/
theorem plain_sq : Cert.Lib.PlainDot dot_S512x512_S512x512_S512x512_1_0_0_1_n_n :=
  ⟨rfl, rfl, sq_l0, sq_l1, sq_r0, sq_r1⟩

theorem wide_l0 (i : S512x512.Idx) (q : dot_S512x3072_S3072x512_S512x512_1_0_0_1_n_n.contr.Idx) : (dot_S512x3072_S3072x512_S512x512_1_0_0_1_n_n.lhsIdx i q 0).val = (i 0).val := by
  unfold DotDims.lhsIdx
  rw [dif_neg (show ¬(0 : Fin S512x3072.rank) ∈ dot_S512x3072_S3072x512_S512x512_1_0_0_1_n_n.lhsBatch by decide), dif_pos (show (0 : Fin S512x3072.rank) ∈ dot_S512x3072_S3072x512_S512x512_1_0_0_1_n_n.lhsNonContracting by decide)]
  rfl
theorem wide_l1 (i : S512x512.Idx) (q : dot_S512x3072_S3072x512_S512x512_1_0_0_1_n_n.contr.Idx) : (dot_S512x3072_S3072x512_S512x512_1_0_0_1_n_n.lhsIdx i q 1).val = (q ⟨0, by decide⟩).val :=
  dot_S512x3072_S3072x512_S512x512_1_0_0_1_n_n.lhsIdx_val_of_single rfl i q
theorem wide_r0 (i : S512x512.Idx) (q : dot_S512x3072_S3072x512_S512x512_1_0_0_1_n_n.contr.Idx) : (dot_S512x3072_S3072x512_S512x512_1_0_0_1_n_n.rhsIdx i q 0).val = (q ⟨0, by decide⟩).val :=
  dot_S512x3072_S3072x512_S512x512_1_0_0_1_n_n.rhsIdx_val_of_single rfl i q
theorem wide_r1 (i : S512x512.Idx) (q : dot_S512x3072_S3072x512_S512x512_1_0_0_1_n_n.contr.Idx) : (dot_S512x3072_S3072x512_S512x512_1_0_0_1_n_n.rhsIdx i q 1).val = (i 1).val := by
  unfold DotDims.rhsIdx
  rw [dif_neg (show ¬(1 : Fin S3072x512.rank) ∈ dot_S512x3072_S3072x512_S512x512_1_0_0_1_n_n.rhsBatch by decide), dif_pos (show (1 : Fin S3072x512.rank) ∈ dot_S512x3072_S3072x512_S512x512_1_0_0_1_n_n.rhsNonContracting by decide)]
  rfl

/-- The wide product `[512, 3072] · [3072, 512]`. -/
theorem plain_wide : Cert.Lib.PlainDot dot_S512x3072_S3072x512_S512x512_1_0_0_1_n_n :=
  ⟨rfl, rfl, wide_l0, wide_l1, wide_r0, wide_r1⟩

end Cert.KernelIdeal.Dots

end
-- ==== Proof.Spec.lean ====
/-
  The function both programs compute, over the extended reals.

  For one batch element: `A h` is head `h`'s adjacency matrix, `X0` the input features, `W i` and `B i` the weight
  and bias of layer number `i`, `Wo` and `Bo` the output weight and bias. `den` is one plus the row sums of a head's
  adjacency matrix. A layer takes node features `X` to `max ((((A · X) + X) · Wᵀ + 2 · bias) / den) 0`: the adjacency
  product, the residual, the dense map with the layer's weight (contracted over the weight's SECOND index) and twice its
  bias, the row-wise quotient, and the positive part. Each head stacks two layers from the same input features; the six
  layer outputs are laid side by side (pair `2 h + l` in columns `512 (2 h + l) …`), mapped by the output weight (again
  contracted over its second index), and the output bias and the input features are added. The result array `G` does
  this for each batch element with that element's adjacency matrices and features.
-/
import Idealize.ShloMosaic.PureOps.Ideal
import Idealize.ShloMosaic.PureOps.Ideal.Laws
import Idealize.ShloMosaic.Lib.ValueIdx

noncomputable section

namespace Cert.Gnn

open Idealize.ShloMosaic Idealize.ShloMosaic.ValueIdx

section OneBatchElement

variable (A : Fin 3 → Fin 512 → Fin 512 → EReal) (X0 : Fin 512 → Fin 512 → EReal)
  (W : Fin 6 → Fin 512 → Fin 512 → EReal) (B : Fin 6 → Fin 512 → EReal)
  (Wo : Fin 512 → Fin 3072 → EReal) (Bo : Fin 512 → EReal)

/-- One plus the sum of row `s` of head `h`'s adjacency matrix. -/
def den (h : Fin 3) (s : Fin 512) : EReal :=
  (∑ t : Fin 512, A h s t) + Ideal.ofBits .f32 0x3F800000#32

/-- One layer with weight and bias number `i`, on head `h`'s adjacency matrix, from features `X`. -/
def layer (h : Fin 3) (i : Fin 6) (X : Fin 512 → Fin 512 → EReal) (s e : Fin 512) : EReal :=
  max (Ideal.div
      ((∑ d : Fin 512, ((∑ t : Fin 512, A h s t * X t d) + X s d) * W i e d)
        + Ideal.ofBits .f32 0x40000000#32 * B i e)
      (den A h s))
    (Ideal.ofBits .f32 0x00000000#32)

/-- The output of pair `k = 2 h + l`: head `h`'s first layer for even `k`, its second on top of the first for odd. -/
def hid (k : ℕ) : Fin 512 → Fin 512 → EReal :=
  match k with
  | 0 => layer A W B 0 0 X0
  | 1 => layer A W B 0 1 (layer A W B 0 0 X0)
  | 2 => layer A W B 1 2 X0
  | 3 => layer A W B 1 3 (layer A W B 1 2 X0)
  | 4 => layer A W B 2 4 X0
  | _ => layer A W B 2 5 (layer A W B 2 4 X0)

/-- The six outputs side by side: column `f` is column `f % 512` of pair `f / 512`. -/
def side (s : Fin 512) (f : Fin 3072) : EReal :=
  hid A X0 W B (f.val / 512) s ⟨f.val % 512, Nat.mod_lt _ (by norm_num)⟩

/-- The result at row `s`, column `d`. -/
def out (s d : Fin 512) : EReal :=
  X0 s d + ((∑ f : Fin 3072, side A X0 W B s f * Wo d f) + Bo d)

/-- Column `512 k + e` of the side-by-side matrix is column `e` of pair `k`. -/
theorem side_at (s : Fin 512) (k : ℕ) (e : Fin 512) (f : Fin 3072) (hf : f.val = 512 * k + e.val) :
    side A X0 W B s f = hid A X0 W B k s e := by
  unfold side
  have h1 : f.val / 512 = k := by have := e.isLt; omega
  have h2 : f.val % 512 = e.val := by have := e.isLt; omega
  have : (⟨f.val % 512, Nat.mod_lt _ (by norm_num)⟩ : Fin 512) = e := Fin.ext h2
  rw [h1, this]

end OneBatchElement

variable (adj : FVec Ideal ⟨4, ![3, 16, 512, 512]⟩ .f32) (gcn : FVec Ideal ⟨3, ![16, 512, 512]⟩ .f32)
  (wg : FVec Ideal ⟨3, ![6, 512, 512]⟩ .f32) (bg : FVec Ideal ⟨2, ![6, 512]⟩ .f32)
  (wo : FVec Ideal ⟨2, ![512, 3072]⟩ .f32) (bo : FVec Ideal ⟨1, ![512]⟩ .f32)

/-- The result array: batch element `b` from its own adjacency matrices and features and the shared weights. -/
def G : FVec Ideal ⟨3, ![16, 512, 512]⟩ .f32 := fun i =>
  out (fun h s t => adj (ix4 h (i 0) s t)) (fun t d => gcn (ix3 (i 0) t d)) (fun k e d => wg (ix3 k e d))
    (fun k e => bg (ix2 k e)) (fun d f => wo (ix2 d f)) (fun d => bo (ix1 d)) (i 1) (i 2)

theorem G_apply (b : Fin 16) (s d : Fin 512) :
    G adj gcn wg bg wo bo (ix3 b s d)
      = out (fun h s t => adj (ix4 h b s t)) (fun t d => gcn (ix3 b t d)) (fun k e d => wg (ix3 k e d))
          (fun k e => bg (ix2 k e)) (fun d f => wo (ix2 d f)) (fun d => bo (ix1 d)) s d := rfl

end Cert.Gnn

end
-- ==== Proof.KPay.lean ====
/-
  The kernel's arithmetic read at an index, over the extended reals.

  One layer of the body is, on matrices held in registers, `max ((((A · X) + X) · Wt + 2 · b) / dn) 0`: two matrix
  products into zeros with operands narrowed to the short float format (the identity here), a bias row doubled and
  broadcast over the rows, a column of row sums broadcast over the columns, the quotient and the positive part
  (`LAY`). Read at `(s, e)` it is `lay`: the adjacency product `∑ t, A s t · X t d`, the residual, the dense map
  `∑ d, … · Wt d e` — the weight block is stored transposed, so this contracts the weight's second index —, twice the
  bias, the quotient by the row's `dn`, and `max · 0` (`LAY_eq`). The operands are loads of the staged blocks through
  unit-stride rectangles: head `h`'s adjacency matrix, weight `k`, bias row `k` (`adj_apply`, `wt_apply`,
  `bias_apply`), and the column of row sums plus one (`den_ld_apply`).
-/
import proofs.«173532_j90305982366173_1_alg».proof.Proof.Gen.KernelIdeal.Skeleton
import proofs.«173532_j90305982366173_1_alg».proof.Proof.KLib
import proofs.«173532_j90305982366173_1_alg».proof.Proof.KDots
import proofs.«173532_j90305982366173_1_alg».proof.Proof.Spec
import Idealize.ShloMosaic.Lib.Pipeline.FrameBody

noncomputable section

namespace Cert.KernelIdeal.Pay

open Idealize.ShloMosaic Idealize.ShloMosaic.ValueIdx Cert.KernelIdeal Cert.KernelIdeal.Gen

/-- One layer at `(s, e)` over coordinate functions: `W e d` is the weight as the plain program indexes it. -/
def lay (A X W : Fin 512 → Fin 512 → EReal) (B dn : Fin 512 → EReal) (s e : Fin 512) : EReal :=
  max (Ideal.div
      ((∑ d : Fin 512, ((∑ t : Fin 512, A s t * X t d) + X s d) * W e d)
        + Ideal.ofBits .f32 0x40000000#32 * B e)
      (dn s))
    (Ideal.ofBits .f32 0x00000000#32)

/-- The plain program's layer is `lay` with head `h`'s adjacency matrix and row sums and weight and bias `i`. -/
theorem layer_eq_lay (A : Fin 3 → Fin 512 → Fin 512 → EReal) (W : Fin 6 → Fin 512 → Fin 512 → EReal)
    (B : Fin 6 → Fin 512 → EReal) (h : Fin 3) (i : Fin 6) (X : Fin 512 → Fin 512 → EReal) :
    Cert.Gnn.layer A W B h i X = lay (A h) X (W i) (B i) (Cert.Gnn.den A h) := rfl

/-- The residual sum the second product takes: `A · X + X`. -/
def AXP (Abf : FVec Ideal S512x512 .bf16) (X : FVec Ideal S512x512 .f32) : FVec Ideal S512x512 .f32 :=
  addf (matmul dot_S512x512_S512x512_S512x512_1_0_0_1_n_n none Abf (truncf .bf16 X bitsLt_bf16_f32) (constant S512x512 .f32 0x00000000#32)) X

/-- One layer on register matrices. -/
def LAY (Abf : FVec Ideal S512x512 .bf16) (X : FVec Ideal S512x512 .f32) (Wt : FVec Ideal S512x512 .bf16)
    (b1 : FVec Ideal S1x512 .f32) (dn : FVec Ideal S512x1 .f32) : FVec Ideal S512x512 .f32 :=
  maximumf
    (divf
      (addf (matmul dot_S512x512_S512x512_S512x512_1_0_0_1_n_n none (truncf .bf16 (AXP Abf X) bitsLt_bf16_f32) Wt (constant S512x512 .f32 0x00000000#32))
        (broadcastTo S512x512
          (shapeCast S1x512 (mulf (broadcast S512 (Scalar.ofBits .f32 0x40000000#32)) (shapeCast S512 b1 shapeCasts_S1x512_S512))
            shapeCasts_S512_S1x512)
          broadcasts_S1x512_S512x512))
      (broadcastTo S512x512 dn broadcasts_S512x1_S512x512))
    (broadcast S512x512 (Scalar.ofBits .f32 0x00000000#32))

theorem AXP_apply (Abf : FVec Ideal S512x512 .bf16) (X : FVec Ideal S512x512 .f32) (s d : Fin 512) :
    AXP Abf X (ix2 s d) = (∑ t : Fin 512, Abf (ix2 s t) * X (ix2 t d)) + X (ix2 s d) := by
  unfold AXP
  rw [addf_apply, Cert.KLib.matmul_zero_apply Cert.KernelIdeal.Dots.plain_sq]
  rfl

theorem LAY_apply (Abf : FVec Ideal S512x512 .bf16) (X : FVec Ideal S512x512 .f32) (Wt : FVec Ideal S512x512 .bf16)
    (b1 : FVec Ideal S1x512 .f32) (dn : FVec Ideal S512x1 .f32) (s e : Fin 512) :
    LAY Abf X Wt b1 dn (ix2 s e)
      = max (Ideal.div
          ((∑ d : Fin 512, AXP Abf X (ix2 s d) * Wt (ix2 d e)) + Ideal.ofBits .f32 0x40000000#32 * b1 (ix2 (0 : Fin 1) e))
          (dn (ix2 s (0 : Fin 1))))
        (Ideal.ofBits .f32 0x00000000#32) := by
  unfold LAY
  rw [maximumf_apply, divf_apply, addf_apply, Cert.KLib.matmul_zero_apply Cert.KernelIdeal.Dots.plain_sq,
    broadcastTo_1b_ab_apply, shapeCast_a_1a_apply, mulf_apply, shapeCast_1a_a_apply, Cert.KLib.broadcastTo_a1_ab_apply]
  rfl

/-- A layer on register matrices whose entries are known is `lay` of those entries. -/
theorem LAY_eq (Abf : FVec Ideal S512x512 .bf16) (X : FVec Ideal S512x512 .f32) (Wt : FVec Ideal S512x512 .bf16)
    (b1 : FVec Ideal S1x512 .f32) (dn : FVec Ideal S512x1 .f32)
    (A' X' W' : Fin 512 → Fin 512 → EReal) (B' dn' : Fin 512 → EReal)
    (hA : ∀ s t, Abf (ix2 s t) = A' s t) (hX : ∀ t d, X (ix2 t d) = X' t d) (hW : ∀ d e, Wt (ix2 d e) = W' e d)
    (hB : ∀ e, b1 (ix2 (0 : Fin 1) e) = B' e) (hd : ∀ s, dn (ix2 s (0 : Fin 1)) = dn' s) (s e : Fin 512) :
    LAY Abf X Wt b1 dn (ix2 s e) = lay A' X' W' B' dn' s e := by
  rw [LAY_apply, hB, hd]
  unfold lay
  refine congrArg (fun z => max (Ideal.div (z + Ideal.ofBits .f32 0x40000000#32 * B' e) (dn' s)) (Ideal.ofBits .f32 0x00000000#32))
    (Finset.sum_congr rfl fun d _ => ?_)
  rw [AXP_apply, hW, hX]
  exact congrArg (fun z => (z + X' s d) * W' e d) (Finset.sum_congr rfl fun t _ => by rw [hA, hX])

/-! ## The operands: loads of the staged blocks -/

/-- Head `h`'s adjacency matrix: the load of block `h` of the staged `[3, 1, 512, 512]` block, as a matrix. -/
theorem adj_apply (x0 : FVec Ideal S3x1x512x512 .f32) (h : Fin 3)
    (inb : ∀ a, (![h.val, 0, 0, 0] : Fin 4 → ℕ) a + S1x1x512x512.size a ≤ S3x1x512x512.size a) (s t : Fin 512) :
    shapeCast S512x512 (View.ld (Val := Elt Ideal) (e' := .f32) x0 (Rect.unit (s := S3x1x512x512) ![h.val, 0, 0, 0] S1x1x512x512.size inb))
        shapeCasts_S1x1x512x512_S512x512 (ix2 s t)
      = x0 (ix4 h (0 : Fin 1) s t) := by
  rw [Cert.KLib.shapeCast_11ab_ab_apply]
  exact Cert.KLib.ld_unit_apply x0 _ _ inb _ (ix4 h (0 : Fin 1) s t) (fun a => by
    match a with
    | ⟨0, _⟩ => rfl
    | ⟨1, _⟩ => rfl
    | ⟨2, _⟩ => exact (Nat.zero_add _).symm
    | ⟨3, _⟩ => exact (Nat.zero_add _).symm)

/-- Weight `k`, stored transposed: the load of block `k` of the staged `[6, 512, 512]` block, as a matrix. -/
theorem wt_apply (x2 : FVec Ideal S6x512x512 .bf16) (k : Fin 6)
    (inb : ∀ a, (![k.val, 0, 0] : Fin 3 → ℕ) a + S1x512x512.size a ≤ S6x512x512.size a) (d e : Fin 512) :
    shapeCast S512x512 (View.ld (Val := Elt Ideal) (e' := .bf16) x2 (Rect.unit (s := S6x512x512) ![k.val, 0, 0] S1x512x512.size inb))
        shapeCasts_S1x512x512_S512x512 (ix2 d e)
      = x2 (ix3 k d e) := by
  rw [shapeCast_1ab_ab_apply]
  exact Cert.KLib.ld_unit_apply x2 _ _ inb _ (ix3 k d e) (fun a => by
    match a with
    | ⟨0, _⟩ => rfl
    | ⟨1, _⟩ => exact (Nat.zero_add _).symm
    | ⟨2, _⟩ => exact (Nat.zero_add _).symm)

/-- Bias row `k`: the load of row `k` of the staged `[6, 512]` block. -/
theorem bias_apply (x3 : FVec Ideal S6x512 .f32) (k : Fin 6)
    (inb : ∀ a, (![k.val, 0] : Fin 2 → ℕ) a + S1x512.size a ≤ S6x512.size a) (e : Fin 512) :
    View.ld (Val := Elt Ideal) (e' := .f32) x3 (Rect.unit (s := S6x512) ![k.val, 0] S1x512.size inb) (ix2 (0 : Fin 1) e) = x3 (ix2 k e) :=
  Cert.KLib.ld_unit_apply x3 _ _ inb _ (ix2 k e) (fun a => by
    match a with
    | ⟨0, _⟩ => rfl
    | ⟨1, _⟩ => exact (Nat.zero_add _).symm)

/-- The input features' block as a matrix. -/
theorem feat_apply (x1 : FVec Ideal S1x512x512 .f32) (t d : Fin 512) :
    k0_pay3 (F := Ideal) x1 (ix2 t d) = x1 (ix3 (0 : Fin 1) t d) := by
  unfold k0_pay3
  exact shapeCast_1ab_ab_apply x1 _ t d

/-- The column of row sums plus one of a `[1, 1, 512, 512]` load. -/
theorem den_apply (a : FVec Ideal S1x1x512x512 .f32) (s : Fin 512) (u : Fin 1) :
    k0_pay5 (F := Ideal) a (ix2 s u) = (∑ t : Fin 512, a (ix4 (0 : Fin 1) (0 : Fin 1) s t)) + Ideal.ofBits .f32 0x3F800000#32 := by
  unfold k0_pay5 k0_pay4
  rw [addf_apply, Cert.KLib.shapeCast_a_a1_apply]
  refine congrArg (· + Ideal.ofBits .f32 0x3F800000#32) ?_
  refine (Ideal.multiReduction_add_single _ 0x00000000#32 reduces_S512x512_S512 (.inl rfl) rfl (ix1 s)).trans ?_
  refine Finset.sum_congr rfl fun t _ => ?_
  exact (congrArg (shapeCast S512x512 a shapeCasts_S1x1x512x512_S512x512) (funext fun c => Fin.ext (by
    match c with
    | ⟨0, _⟩ => rfl
    | ⟨1, _⟩ => rfl))).trans (Cert.KLib.shapeCast_11ab_ab_apply a _ s t)

/-- … of head `h`'s load: the plain program's `den`. -/
theorem den_ld_apply (x0 : FVec Ideal S3x1x512x512 .f32) (h : Fin 3)
    (inb : ∀ a, (![h.val, 0, 0, 0] : Fin 4 → ℕ) a + S1x1x512x512.size a ≤ S3x1x512x512.size a) (s : Fin 512) (u : Fin 1) :
    k0_pay5 (F := Ideal) (View.ld (Val := Elt Ideal) (e' := .f32) x0 (Rect.unit (s := S3x1x512x512) ![h.val, 0, 0, 0] S1x1x512x512.size inb)) (ix2 s u)
      = Cert.Gnn.den (fun h s t => x0 (ix4 h (0 : Fin 1) s t)) h s := by
  rw [den_apply]
  unfold Cert.Gnn.den
  refine congrArg (· + Ideal.ofBits .f32 0x3F800000#32) (Finset.sum_congr rfl fun t _ => ?_)
  exact Cert.KLib.ld_unit_apply x0 _ _ inb _ (ix4 h (0 : Fin 1) s t) (fun a => by
    match a with
    | ⟨0, _⟩ => rfl
    | ⟨1, _⟩ => rfl
    | ⟨2, _⟩ => exact (Nat.zero_add _).symm
    | ⟨3, _⟩ => exact (Nat.zero_add _).symm)

end Cert.KernelIdeal.Pay

end
-- ==== Proof.KBlock.lean ====
/-
  What one grid point leaves in the output block, over the extended reals.

  The body keeps the six layer outputs in a `[512, 3072]` scratch matrix, pair `k` in columns `512 k …`, reads the
  whole matrix back, multiplies it by the transposed output weight, and adds the output bias and the input features.
  Pair `k`'s stored value is the plain program's `hid k` of the staged blocks (`pair0` … `pair5`: each is one `LAY`
  on loads, the odd ones on top of the even one's value); so the matrix read back is the plain program's side-by-side
  matrix (`scratch` agrees with it piece by piece, and the six pieces cover every column), and the block is the plain
  program's `out` of the staged blocks (`out_apply`).
-/
import proofs.«173532_j90305982366173_1_alg».proof.Proof.Gen.KernelIdeal.Frame
import proofs.«173532_j90305982366173_1_alg».proof.Proof.KPay
import Idealize.ShloMosaic.Lib.Pipeline.Value
import Idealize.ShloMosaic.Lib.Tactic

set_option maxRecDepth 16384

noncomputable section

namespace Cert.KernelIdeal.Block

open Idealize.ShloMosaic Idealize.ShloMosaic.ValueIdx Idealize.ShloMosaic.TcCoe Idealize.SL.Sem
open Cert.KernelIdeal Cert.KernelIdeal.Gen Cert.KernelIdeal.Pay

variable (x0 : Vec Ideal S3x1x512x512 .f32) (x1 : Vec Ideal S1x512x512 .f32) (x2 : Vec Ideal S6x512x512 .bf16)
  (x3 : Vec Ideal S6x512 .f32) (x4 : Vec Ideal S3072x512 .bf16) (x5 : Vec Ideal S512 .f32)

/-- The staged blocks as the plain program's coordinate functions. -/
abbrev A : Fin 3 → Fin 512 → Fin 512 → EReal := fun h s t => x0 (ix4 h (0 : Fin 1) s t)
abbrev X0 : Fin 512 → Fin 512 → EReal := fun t d => x1 (ix3 (0 : Fin 1) t d)
abbrev W : Fin 6 → Fin 512 → Fin 512 → EReal := fun k e d => x2 (ix3 k d e)
abbrev B : Fin 6 → Fin 512 → EReal := fun k e => x3 (ix2 k e)
abbrev Wo : Fin 512 → Fin 3072 → EReal := fun d f => x4 (ix2 f d)
abbrev Bo : Fin 512 → EReal := fun d => x5 (ix1 d)

/-- The loads: head `h`'s adjacency matrix, weight `k`, bias row `k`. -/
abbrev aL (h : Fin 3) (inb : ∀ a, (![h.val, 0, 0, 0] : Fin 4 → ℕ) a + S1x1x512x512.size a ≤ S3x1x512x512.size a) :
    Vec Ideal S1x1x512x512 .f32 :=
  View.ld (Val := Elt Ideal) (e' := .f32) x0 (Rect.unit (s := S3x1x512x512) ![h.val, 0, 0, 0] S1x1x512x512.size inb)
abbrev wL (k : Fin 6) (inb : ∀ a, (![k.val, 0, 0] : Fin 3 → ℕ) a + S1x512x512.size a ≤ S6x512x512.size a) :
    Vec Ideal S1x512x512 .bf16 :=
  View.ld (Val := Elt Ideal) (e' := .bf16) x2 (Rect.unit (s := S6x512x512) ![k.val, 0, 0] S1x512x512.size inb)
abbrev bL (k : Fin 6) (inb : ∀ a, (![k.val, 0] : Fin 2 → ℕ) a + S1x512.size a ≤ S6x512.size a) :
    Vec Ideal S1x512 .f32 :=
  View.ld (Val := Elt Ideal) (e' := .f32) x3 (Rect.unit (s := S6x512) ![k.val, 0] S1x512.size inb)

/-- A layer on head `h`'s loaded adjacency matrix with loaded weight and bias `k`, from features whose entries are
    `X'`, is the plain program's layer. -/
theorem layer_ld (h : Fin 3) (k : Fin 6) (inbA) (inbW) (inbB) (X : FVec Ideal S512x512 .f32)
    (X' : Fin 512 → Fin 512 → EReal) (hX : ∀ t d, X (ix2 t d) = X' t d) (s e : Fin 512) :
    LAY (truncf .bf16 (shapeCast S512x512 (aL x0 h inbA) shapeCasts_S1x1x512x512_S512x512) bitsLt_bf16_f32) X
        (shapeCast S512x512 (wL x2 k inbW) shapeCasts_S1x512x512_S512x512) (bL x3 k inbB) (k0_pay5 (F := Ideal) (aL x0 h inbA)) (ix2 s e)
      = Cert.Gnn.layer (A x0) (W x2) (B x3) h k X' s e := by
  show _ = lay (A x0 h) X' (W x2 k) (B x3 k) (Cert.Gnn.den (A x0) h) s e
  exact LAY_eq _ _ _ _ _ (A x0 h) X' (W x2 k) (B x3 k) (Cert.Gnn.den (A x0) h)
    (fun s t => adj_apply x0 h inbA s t) hX (fun d e => wt_apply x2 k inbW d e) (fun e => bias_apply x3 k inbB e)
    (fun s => den_ld_apply x0 h inbA s 0) s e

section Pairs

variable (a0 : ∀ a, (![(0 : Fin 3).val, 0, 0, 0] : Fin 4 → ℕ) a + S1x1x512x512.size a ≤ S3x1x512x512.size a)
  (a1 : ∀ a, (![(1 : Fin 3).val, 0, 0, 0] : Fin 4 → ℕ) a + S1x1x512x512.size a ≤ S3x1x512x512.size a)
  (a2 : ∀ a, (![(2 : Fin 3).val, 0, 0, 0] : Fin 4 → ℕ) a + S1x1x512x512.size a ≤ S3x1x512x512.size a)
  (w0 : ∀ a, (![(0 : Fin 6).val, 0, 0] : Fin 3 → ℕ) a + S1x512x512.size a ≤ S6x512x512.size a)
  (w1 : ∀ a, (![(1 : Fin 6).val, 0, 0] : Fin 3 → ℕ) a + S1x512x512.size a ≤ S6x512x512.size a)
  (w2 : ∀ a, (![(2 : Fin 6).val, 0, 0] : Fin 3 → ℕ) a + S1x512x512.size a ≤ S6x512x512.size a)
  (w3 : ∀ a, (![(3 : Fin 6).val, 0, 0] : Fin 3 → ℕ) a + S1x512x512.size a ≤ S6x512x512.size a)
  (w4 : ∀ a, (![(4 : Fin 6).val, 0, 0] : Fin 3 → ℕ) a + S1x512x512.size a ≤ S6x512x512.size a)
  (w5 : ∀ a, (![(5 : Fin 6).val, 0, 0] : Fin 3 → ℕ) a + S1x512x512.size a ≤ S6x512x512.size a)
  (b0 : ∀ a, (![(0 : Fin 6).val, 0] : Fin 2 → ℕ) a + S1x512.size a ≤ S6x512.size a)
  (b1 : ∀ a, (![(1 : Fin 6).val, 0] : Fin 2 → ℕ) a + S1x512.size a ≤ S6x512.size a)
  (b2 : ∀ a, (![(2 : Fin 6).val, 0] : Fin 2 → ℕ) a + S1x512.size a ≤ S6x512.size a)
  (b3 : ∀ a, (![(3 : Fin 6).val, 0] : Fin 2 → ℕ) a + S1x512.size a ≤ S6x512.size a)
  (b4 : ∀ a, (![(4 : Fin 6).val, 0] : Fin 2 → ℕ) a + S1x512.size a ≤ S6x512.size a)
  (b5 : ∀ a, (![(5 : Fin 6).val, 0] : Fin 2 → ℕ) a + S1x512.size a ≤ S6x512.size a)

/-- Head 0's first layer, in registers. -/
theorem first0 (t d : Fin 512) :
    k0_pay7 (F := Ideal) x1 (aL x0 0 a0) (wL x2 0 w0) (bL x3 0 b0) (ix2 t d)
      = Cert.Gnn.layer (A x0) (W x2) (B x3) 0 0 (X0 x1) t d := by
  show LAY (truncf .bf16 (shapeCast S512x512 (aL x0 0 a0) shapeCasts_S1x1x512x512_S512x512) bitsLt_bf16_f32) (k0_pay3 (F := Ideal) x1)
      (shapeCast S512x512 (wL x2 0 w0) shapeCasts_S1x512x512_S512x512) (bL x3 0 b0) (k0_pay5 (F := Ideal) (aL x0 0 a0)) (ix2 t d) = _
  exact layer_ld x0 x2 x3 0 0 a0 w0 b0 _ (X0 x1) (feat_apply x1) t d

theorem pair0 (s e : Fin 512) :
    k0_pay8 (F := Ideal) x1 (aL x0 0 a0) (wL x2 0 w0) (bL x3 0 b0) (ix2 s e) = Cert.Gnn.hid (A x0) (X0 x1) (W x2) (B x3) 0 s e := by
  unfold k0_pay8
  rw [shapeCast_self]
  exact first0 x0 x1 x2 x3 a0 w0 b0 s e

theorem pair1 (s e : Fin 512) :
    k0_pay10 (F := Ideal) (k0_pay5 (aL x0 0 a0)) (k0_pay9 x1 (aL x0 0 a0) (wL x2 0 w0) (bL x3 0 b0)) (wL x2 1 w1) (bL x3 1 b1) (ix2 s e)
      = Cert.Gnn.hid (A x0) (X0 x1) (W x2) (B x3) 1 s e := by
  unfold k0_pay10
  rw [shapeCast_self]
  show LAY (truncf .bf16 (shapeCast S512x512 (aL x0 0 a0) shapeCasts_S1x1x512x512_S512x512) bitsLt_bf16_f32)
      (k0_pay7 (F := Ideal) x1 (aL x0 0 a0) (wL x2 0 w0) (bL x3 0 b0))
      (shapeCast S512x512 (wL x2 1 w1) shapeCasts_S1x512x512_S512x512) (bL x3 1 b1) (k0_pay5 (F := Ideal) (aL x0 0 a0)) (ix2 s e) = _
  exact layer_ld x0 x2 x3 0 1 a0 w1 b1 _ _ (first0 x0 x1 x2 x3 a0 w0 b0) s e

/-- Head 1's first layer, in registers. -/
theorem first1 (t d : Fin 512) :
    k0_pay16 (F := Ideal) (k0_pay12 (aL x0 1 a1)) (k0_pay14 (k0_pay3 x1) (aL x0 1 a1) (wL x2 2 w2)) (k0_pay15 (bL x3 2 b2)) (ix2 t d)
      = Cert.Gnn.layer (A x0) (W x2) (B x3) 1 2 (X0 x1) t d := by
  show LAY (truncf .bf16 (shapeCast S512x512 (aL x0 1 a1) shapeCasts_S1x1x512x512_S512x512) bitsLt_bf16_f32) (k0_pay3 (F := Ideal) x1)
      (shapeCast S512x512 (wL x2 2 w2) shapeCasts_S1x512x512_S512x512) (bL x3 2 b2) (k0_pay5 (F := Ideal) (aL x0 1 a1)) (ix2 t d) = _
  exact layer_ld x0 x2 x3 1 2 a1 w2 b2 _ (X0 x1) (feat_apply x1) t d

theorem pair2 (s e : Fin 512) :
    k0_pay17 (F := Ideal) (k0_pay12 (aL x0 1 a1)) (k0_pay14 (k0_pay3 x1) (aL x0 1 a1) (wL x2 2 w2)) (k0_pay15 (bL x3 2 b2)) (ix2 s e)
      = Cert.Gnn.hid (A x0) (X0 x1) (W x2) (B x3) 2 s e := by
  unfold k0_pay17
  rw [shapeCast_self]
  exact first1 x0 x1 x2 x3 a1 w2 b2 s e

theorem pair3 (s e : Fin 512) :
    k0_pay18 (F := Ideal) (k0_pay12 (aL x0 1 a1)) (k0_pay13 (aL x0 1 a1)) (k0_pay14 (k0_pay3 x1) (aL x0 1 a1) (wL x2 2 w2)) (k0_pay15 (bL x3 2 b2))
        (wL x2 3 w3) (bL x3 3 b3) (ix2 s e)
      = Cert.Gnn.hid (A x0) (X0 x1) (W x2) (B x3) 3 s e := by
  unfold k0_pay18
  rw [shapeCast_self]
  show LAY (truncf .bf16 (shapeCast S512x512 (aL x0 1 a1) shapeCasts_S1x1x512x512_S512x512) bitsLt_bf16_f32)
      (k0_pay16 (F := Ideal) (k0_pay12 (aL x0 1 a1)) (k0_pay14 (k0_pay3 x1) (aL x0 1 a1) (wL x2 2 w2)) (k0_pay15 (bL x3 2 b2)))
      (shapeCast S512x512 (wL x2 3 w3) shapeCasts_S1x512x512_S512x512) (bL x3 3 b3) (k0_pay5 (F := Ideal) (aL x0 1 a1)) (ix2 s e) = _
  exact layer_ld x0 x2 x3 1 3 a1 w3 b3 _ _ (first1 x0 x1 x2 x3 a1 w2 b2) s e

/-- Head 2's first layer, in registers. -/
theorem first2 (t d : Fin 512) :
    k0_pay22 (F := Ideal) (k0_pay3 x1) (k0_pay19 (aL x0 2 a2)) (k0_pay20 (aL x0 2 a2)) (wL x2 4 w4) (bL x3 4 b4) (ix2 t d)
      = Cert.Gnn.layer (A x0) (W x2) (B x3) 2 4 (X0 x1) t d := by
  show LAY (truncf .bf16 (shapeCast S512x512 (aL x0 2 a2) shapeCasts_S1x1x512x512_S512x512) bitsLt_bf16_f32) (k0_pay3 (F := Ideal) x1)
      (shapeCast S512x512 (wL x2 4 w4) shapeCasts_S1x512x512_S512x512) (bL x3 4 b4) (k0_pay5 (F := Ideal) (aL x0 2 a2)) (ix2 t d) = _
  exact layer_ld x0 x2 x3 2 4 a2 w4 b4 _ (X0 x1) (feat_apply x1) t d

theorem pair4 (s e : Fin 512) :
    k0_pay23 (F := Ideal) (k0_pay3 x1) (k0_pay19 (aL x0 2 a2)) (k0_pay20 (aL x0 2 a2)) (wL x2 4 w4) (bL x3 4 b4) (ix2 s e)
      = Cert.Gnn.hid (A x0) (X0 x1) (W x2) (B x3) 4 s e := by
  unfold k0_pay23
  rw [shapeCast_self]
  exact first2 x0 x1 x2 x3 a2 w4 b4 s e

theorem pair5 (s e : Fin 512) :
    k0_pay1 (F := Ideal) (k0_pay24 (k0_pay3 x1) (k0_pay19 (aL x0 2 a2)) (k0_pay20 (aL x0 2 a2)) (wL x2 4 w4) (bL x3 4 b4) (wL x2 5 w5) (bL x3 5 b5))
        (FloatOps.ofBits .f32 0#32) (ix2 s e)
      = Cert.Gnn.hid (A x0) (X0 x1) (W x2) (B x3) 5 s e := by
  unfold k0_pay1
  rw [shapeCast_self]
  show LAY (truncf .bf16 (shapeCast S512x512 (aL x0 2 a2) shapeCasts_S1x1x512x512_S512x512) bitsLt_bf16_f32)
      (k0_pay22 (F := Ideal) (k0_pay3 x1) (k0_pay19 (aL x0 2 a2)) (k0_pay20 (aL x0 2 a2)) (wL x2 4 w4) (bL x3 4 b4))
      (shapeCast S512x512 (wL x2 5 w5) shapeCasts_S1x512x512_S512x512) (bL x3 5 b5) (k0_pay5 (F := Ideal) (aL x0 2 a2)) (ix2 s e) = _
  exact layer_ld x0 x2 x3 2 5 a2 w5 b5 _ _ (first2 x0 x1 x2 x3 a2 w4 b4) s e

end Pairs

/-- The plain program's side-by-side matrix of the staged blocks, as contents of the scratch matrix. -/
def scratch : S512x3072.Idx → Elt Ideal .bf16 := fun y => Cert.Gnn.side (A x0) (X0 x1) (W x2) (B x3) (y 0) (y 1)

/-- At position `(s, e)` of the rectangle of columns `512 k …` it is pair `k` at `(s, e)`. -/
theorem scratch_emb (k : ℕ) (inb : ∀ a, (![0, 512 * k] : Fin 2 → ℕ) a + S512x512.size a ≤ S512x3072.size a) (s e : Fin 512) :
    scratch x0 x1 x2 x3 ((Rect.unit (s := S512x3072) ![0, 512 * k] S512x512.size inb).emb (ix2 s e))
      = Cert.Gnn.hid (A x0) (X0 x1) (W x2) (B x3) k s e := by
  unfold scratch
  have h0 : ((Rect.unit (s := S512x3072) ![0, 512 * k] S512x512.size inb).emb (ix2 s e)) 0 = s :=
    Fin.ext (by show 0 + 1 * s.val = s.val; omega)
  rw [h0]
  exact Cert.Gnn.side_at _ _ _ _ s k e _ (by show 512 * k + 1 * e.val = 512 * k + e.val; omega)

/-- The last store's value at `(0, s, d)`: the input features plus the wide product plus the output bias. -/
theorem pay2_apply (v1 : FVec Ideal S512x512 .f32) (v155 : FVec Ideal S512x3072 .bf16) (v156 : FVec Ideal S3072x512 .bf16)
    (v159 : FVec Ideal S512 .f32) (s d : Fin 512) :
    k0_pay2 (F := Ideal) v1 v155 v156 v159 (ix3 (0 : Fin 1) s d)
      = v1 (ix2 s d) + ((∑ f : Fin 3072, v155 (ix2 s f) * v156 (ix2 f d)) + v159 (ix1 d)) := by
  unfold k0_pay2
  rw [shapeCast_ab_1ab_apply, addf_apply, addf_apply, shapeCast_self,
    Cert.KLib.matmul_zero_apply Cert.KernelIdeal.Dots.plain_wide, broadcastTo_1b_ab_apply, shapeCast_a_1a_apply]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

end Cert.KernelIdeal.Block

end
-- ==== Proof.KOut.lean ====
/-
  One grid point's output block is the plain program's `out` of the staged blocks.

  The run leaves one covering store in the output's staging buffer; its value is the last store's payload of the input
  features' block, the scratch matrix read back after its six stores, the transposed output weight and the output
  bias. The scratch matrix read back is, column by column, the side-by-side matrix of the six pairs: each of the six
  stored pieces agrees with it on its rectangle, and a column `f` lies in the piece of columns `512 (f / 512) …`.
-/
import proofs.«173532_j90305982366173_1_alg».proof.Proof.KBlock

set_option maxRecDepth 16384

noncomputable section

namespace Cert.KernelIdeal.Block

open Idealize.ShloMosaic Idealize.ShloMosaic.ValueIdx Idealize.ShloMosaic.TcCoe Idealize.SL.Sem
open Cert.KernelIdeal Cert.KernelIdeal.Gen Cert.KernelIdeal.Pay

set_option maxHeartbeats 1600000 in
theorem out_apply (c : Dev nD) (i : grid0.Coords) (arg1 : Memref sig .tc .vmem S3x1x512x512 .f32) (harg1 : arg1.IsWhole) (arg2 : Memref sig .tc .vmem S1x512x512 .f32) (harg2 : arg2.IsWhole) (arg3 : Memref sig .tc .vmem S6x512x512 .bf16) (harg3 : arg3.IsWhole) (arg4 : Memref sig .tc .vmem S6x512 .f32) (harg4 : arg4.IsWhole) (arg5 : Memref sig .tc .vmem S3072x512 .bf16) (harg5 : arg5.IsWhole) (arg6 : Memref sig .tc .vmem S512 .f32) (harg6 : arg6.IsWhole) (arg7 : Memref sig .tc .vmem S1x512x512 .f32) (harg7 : arg7.IsWhole) (arg8 : Memref sig .tc .vmem S512x3072 .bf16) (harg8 : arg8.IsWhole)
    (x0 : Vec Ideal S3x1x512x512 .f32) (x1 : Vec Ideal S1x512x512 .f32) (x2 : Vec Ideal S6x512x512 .bf16) (x3 : Vec Ideal S6x512 .f32) (x4 : Vec Ideal S3072x512 .bf16) (x5 : Vec Ideal S512 .f32) (s d : Fin 512) :
    out0_A_6 (F := Ideal) c i arg1 harg1 arg2 harg2 arg3 harg3 arg4 harg4 arg5 harg5 arg6 harg6 arg7 harg7 arg8 harg8 x0 x1 x2 x3 x4 x5 (ix3 (0 : Fin 1) s d)
      = Cert.Gnn.out (A x0) (X0 x1) (W x2) (B x3) (Wo x4) (Bo x5) s d := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  unfold kernelRun0_A
  dsimp only
  sl_unfold_words
  rw [View.canon_unit_zero hz3]
  simp only [View.readAt_eq_ld, harg1.read_unread, harg2.read_unread, harg3.read_unread, harg4.read_unread, harg5.read_unread,
    harg6.read_unread, View.ld_unit_zero (S := S1x512x512) hz3, View.ld_unit_zero (S := S3072x512) hz2,
    View.ld_unit_zero (S := S512) hz1]
  rw [View.readCov_eq_canon', pay2_apply]
  unfold Cert.Gnn.out
  refine congrArg₂ (· + ·) (feat_apply x1 s d) (congrArg (· + x5 (ix1 d)) (Finset.sum_congr rfl fun f _ => ?_))
  refine congrArg (· * x4 (ix2 f d)) ?_
  refine (View.canon_apply_of_pieces (scratch x0 x1 x2 x3) _ ?_ _ ?_).trans ?_
  · intro p hp x
    simp only [List.mem_cons, List.mem_nil_iff, or_false] at hp
    rcases hp with rfl | rfl | rfl | rfl | rfl | rfl
    · obtain ⟨s', e', rfl⟩ : ∃ (s' e' : Fin 512), x = ix2 s' e' := ⟨x 0, x 1, eq_ix2 x⟩
      refine (pair5 x0 x1 x2 x3 _ _ _ _ _ s' e').trans ?_
      exact (scratch_emb x0 x1 x2 x3 5 inb_S512x3072_S512x512_0_2560 s' e').symm
    · obtain ⟨s', e', rfl⟩ : ∃ (s' e' : Fin 512), x = ix2 s' e' := ⟨x 0, x 1, eq_ix2 x⟩
      refine (pair4 x0 x1 x2 x3 _ _ _ s' e').trans ?_
      exact (scratch_emb x0 x1 x2 x3 4 inb_S512x3072_S512x512_0_2048 s' e').symm
    · obtain ⟨s', e', rfl⟩ : ∃ (s' e' : Fin 512), x = ix2 s' e' := ⟨x 0, x 1, eq_ix2 x⟩
      refine (pair3 x0 x1 x2 x3 _ _ _ _ _ s' e').trans ?_
      exact (scratch_emb x0 x1 x2 x3 3 inb_S512x3072_S512x512_0_1536 s' e').symm
    · obtain ⟨s', e', rfl⟩ : ∃ (s' e' : Fin 512), x = ix2 s' e' := ⟨x 0, x 1, eq_ix2 x⟩
      refine (pair2 x0 x1 x2 x3 _ _ _ s' e').trans ?_
      exact (scratch_emb x0 x1 x2 x3 2 inb_S512x3072_S512x512_0_1024 s' e').symm
    · obtain ⟨s', e', rfl⟩ : ∃ (s' e' : Fin 512), x = ix2 s' e' := ⟨x 0, x 1, eq_ix2 x⟩
      refine (pair1 x0 x1 x2 x3 _ _ _ _ _ s' e').trans ?_
      exact (scratch_emb x0 x1 x2 x3 1 inb_S512x3072_S512x512_0_512 s' e').symm
    · obtain ⟨s', e', rfl⟩ : ∃ (s' e' : Fin 512), x = ix2 s' e' := ⟨x 0, x 1, eq_ix2 x⟩
      refine (pair0 x0 x1 x2 x3 _ _ _ s' e').trans ?_
      exact (scratch_emb x0 x1 x2 x3 0 inb_S512x3072_S512x512_0_0 s' e').symm
  · have hf := f.isLt
    have hs := s.isLt
    rcases (by omega : f.val < 512 ∨ (512 ≤ f.val ∧ f.val < 1024) ∨ (1024 ≤ f.val ∧ f.val < 1536) ∨ (1536 ≤ f.val ∧ f.val < 2048) ∨ (2048 ≤ f.val ∧ f.val < 2560) ∨ 2560 ≤ f.val) with h | h | h | h | h | h
    · refine ⟨_, (List.mem_cons_of_mem _ (List.mem_cons_of_mem _ (List.mem_cons_of_mem _ (List.mem_cons_of_mem _ (List.mem_cons_of_mem _ List.mem_cons_self))))), ?_⟩
      refine (Rect.mem_set_unit (inb := inb_S512x3072_S512x512_0_0)).mpr fun a => ?_
      match a with
      | ⟨0, _⟩ => show (0 : ℕ) ≤ 0 + 1 * s.val ∧ 0 + 1 * s.val < 0 + 512; omega
      | ⟨1, _⟩ => show (0 : ℕ) ≤ 0 + 1 * f.val ∧ 0 + 1 * f.val < 0 + 512; omega
    · refine ⟨_, (List.mem_cons_of_mem _ (List.mem_cons_of_mem _ (List.mem_cons_of_mem _ (List.mem_cons_of_mem _ List.mem_cons_self)))), ?_⟩
      refine (Rect.mem_set_unit (inb := inb_S512x3072_S512x512_0_512)).mpr fun a => ?_
      match a with
      | ⟨0, _⟩ => show (0 : ℕ) ≤ 0 + 1 * s.val ∧ 0 + 1 * s.val < 0 + 512; omega
      | ⟨1, _⟩ => show (512 : ℕ) ≤ 0 + 1 * f.val ∧ 0 + 1 * f.val < 512 + 512; omega
    · refine ⟨_, (List.mem_cons_of_mem _ (List.mem_cons_of_mem _ (List.mem_cons_of_mem _ List.mem_cons_self))), ?_⟩
      refine (Rect.mem_set_unit (inb := inb_S512x3072_S512x512_0_1024)).mpr fun a => ?_
      match a with
      | ⟨0, _⟩ => show (0 : ℕ) ≤ 0 + 1 * s.val ∧ 0 + 1 * s.val < 0 + 512; omega
      | ⟨1, _⟩ => show (1024 : ℕ) ≤ 0 + 1 * f.val ∧ 0 + 1 * f.val < 1024 + 512; omega
    · refine ⟨_, (List.mem_cons_of_mem _ (List.mem_cons_of_mem _ List.mem_cons_self)), ?_⟩
      refine (Rect.mem_set_unit (inb := inb_S512x3072_S512x512_0_1536)).mpr fun a => ?_
      match a with
      | ⟨0, _⟩ => show (0 : ℕ) ≤ 0 + 1 * s.val ∧ 0 + 1 * s.val < 0 + 512; omega
      | ⟨1, _⟩ => show (1536 : ℕ) ≤ 0 + 1 * f.val ∧ 0 + 1 * f.val < 1536 + 512; omega
    · refine ⟨_, (List.mem_cons_of_mem _ List.mem_cons_self), ?_⟩
      refine (Rect.mem_set_unit (inb := inb_S512x3072_S512x512_0_2048)).mpr fun a => ?_
      match a with
      | ⟨0, _⟩ => show (0 : ℕ) ≤ 0 + 1 * s.val ∧ 0 + 1 * s.val < 0 + 512; omega
      | ⟨1, _⟩ => show (2048 : ℕ) ≤ 0 + 1 * f.val ∧ 0 + 1 * f.val < 2048 + 512; omega
    · refine ⟨_, List.mem_cons_self, ?_⟩
      refine (Rect.mem_set_unit (inb := inb_S512x3072_S512x512_0_2560)).mpr fun a => ?_
      match a with
      | ⟨0, _⟩ => show (0 : ℕ) ≤ 0 + 1 * s.val ∧ 0 + 1 * s.val < 0 + 512; omega
      | ⟨1, _⟩ => show (2560 : ℕ) ≤ 0 + 1 * f.val ∧ 0 + 1 * f.val < 2560 + 512; omega
  · have h0 : ((Rect.unit (s := S512x3072) ![0, 0] ![512, 3072] inb_S512x3072_S512x3072_0_0).idx (ix2 s f)) 0 = s :=
      Fin.ext (by show 0 + 1 * s.val = s.val; omega)
    have h1 : ((Rect.unit (s := S512x3072) ![0, 0] ![512, 3072] inb_S512x3072_S512x3072_0_0).idx (ix2 s f)) 1 = f :=
      Fin.ext (by show 0 + 1 * f.val = f.val; omega)
    unfold scratch
    rw [h0, h1]

end Cert.KernelIdeal.Block

end
-- ==== Proof.KArray.lean ====
/-
  From the blocks to the result array.

  Grid point `t` handles batch element `t`: its adjacency block is `adj[:, t]`, its feature block `gcn[t]`, its
  output block row `t` of the result, and the weights and biases are staged whole at every point; the two weight
  arrays reach the kernel transposed (and narrowed, the identity here) by the host operations before the launch. So
  what point `t` writes back is block `t` of the plain program's result array `G` of the argument arrays
  (`flushed_eq`), the sixteen blocks tile the result (`cover`), and the result array after the run is `G` (`final`,
  `run`).
-/
import proofs.«173532_j90305982366173_1_alg».proof.Proof.Gen.KernelIdeal.Value
import proofs.«173532_j90305982366173_1_alg».proof.Proof.KOut
import Idealize.ShloMosaic.Lib.StableHlo.Run
import Idealize.ShloMosaic.Lib.ValueLayout

set_option maxRecDepth 16384

noncomputable section

namespace Cert.KernelIdeal.Arr

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Block

variable (m : (ℓ : Loc nD τ sig) → Buf (Elt Ideal) ℓ) (ρ : Dev nD → PrngReg)

/-- The plain program's result array of core `c`'s argument arrays. -/
abbrev GK (c : Dev nD) : S16x512x512.Idx → Elt Ideal .f32 :=
  Cert.Gnn.G (m ((c : Thread nD τ).loc main_arg0)) (m ((c : Thread nD τ).loc main_arg1)) (m ((c : Thread nD τ).loc main_arg4))
    (m ((c : Thread nD τ).loc main_arg5)) (m ((c : Thread nD τ).loc main_arg6)) (m ((c : Thread nD τ).loc main_arg7))

/-- The printed index maps, decided over the sixteen points: point `t` takes block `t` of the batch axis of the
    adjacency, feature and result arrays, and the whole of every other array. -/
theorem idx_facts : ∀ t : Fin cfg0.N,
    win0_0.index t (0 : Fin 4) = 0 ∧ win0_0.index t (1 : Fin 4) = t.val ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 3) = t.val ∧ win0_6.index t (1 : Fin 3) = 0 ∧ win0_6.index t (2 : Fin 3) = 0 :=
  (by decide +kernel : ∀ t : Fin grid0.N, _)

/-- Point `t`'s batch element. -/
def bt (t : Fin cfg0.N) : Fin 16 := ⟨t.val, by have := t.isLt; have hN : cfg0.N = 16 := N_0; omega⟩

/-! ## The arrays the host operations wrote -/

theorem V_v1 (c : Dev nD) : @Eq (S6x512x512.Idx → Elt Ideal .bf16) (V m c main_v1)
    (truncf (F := Ideal) .bf16 (transpose S6x512x512 [0, 2, 1] (m ((c : Thread nD τ).loc main_arg4)) transposes_S6x512x512_S6x512x512_0_2_1) bitsLt_bf16_f32) := by
  dsimp only [V, hostOps0]; after_results

theorem V_v3 (c : Dev nD) : @Eq (S3072x512.Idx → Elt Ideal .bf16) (V m c main_v3)
    (truncf (F := Ideal) .bf16 (transpose S3072x512 [1, 0] (m ((c : Thread nD τ).loc main_arg6)) transposes_S512x3072_S3072x512_1_0) bitsLt_bf16_f32) := by
  dsimp only [V, hostOps0]; after_results

/-! ## The blocks read where the output's block says -/

theorem blk0 (c : Dev nD) (t : Fin cfg0.N) (h : Fin 3) (s t' : Fin 512) :
    (iblk m c 0 t : Vec Ideal S3x1x512x512 .f32) (ix4 h (0 : Fin 1) s t') = (m ((c : Thread nD τ).loc main_arg0)) (ix4 h (bt t) s t') := by
  show V m c main_arg0 (((cfg0.win 0).blk t).view.emb (ix4 h (0 : Fin 1) s t')) = _
  rw [V_main_arg0]
  refine congrArg (m ((c : Thread nD τ).loc main_arg0)) (funext fun a => Fin.ext ?_)
  obtain ⟨e0, e1, e2, e3, -⟩ := idx_facts t
  match a with
  | ⟨0, _⟩ => show win0_0.index t (0 : Fin 4) * 3 + 1 * h.val = h.val; omega
  | ⟨1, _⟩ => show win0_0.index t (1 : Fin 4) * 1 + 1 * 0 = t.val; omega
  | ⟨2, _⟩ => show win0_0.index t (2 : Fin 4) * 512 + 1 * s.val = s.val; omega
  | ⟨3, _⟩ => show win0_0.index t (3 : Fin 4) * 512 + 1 * t'.val = t'.val; omega

theorem blk1 (c : Dev nD) (t : Fin cfg0.N) (s d : Fin 512) :
    (iblk m c 1 t : Vec Ideal S1x512x512 .f32) (ix3 (0 : Fin 1) s d) = (m ((c : Thread nD τ).loc main_arg1)) (ix3 (bt t) s d) := by
  show V m c main_arg1 (((cfg0.win 1).blk t).view.emb (ix3 (0 : Fin 1) s d)) = _
  rw [V_main_arg1]
  refine congrArg (m ((c : Thread nD τ).loc main_arg1)) (funext fun a => Fin.ext ?_)
  obtain ⟨-, -, -, -, e0, e1, e2, -⟩ := idx_facts t
  match a with
  | ⟨0, _⟩ => show win0_1.index t (0 : Fin 3) * 1 + 1 * 0 = t.val; omega
  | ⟨1, _⟩ => show win0_1.index t (1 : Fin 3) * 512 + 1 * s.val = s.val; omega
  | ⟨2, _⟩ => show win0_1.index t (2 : Fin 3) * 512 + 1 * d.val = d.val; omega

theorem blk2 (c : Dev nD) (t : Fin cfg0.N) (k : Fin 6) (d e : Fin 512) :
    (iblk m c 2 t : Vec Ideal S6x512x512 .bf16) (ix3 k d e) = (m ((c : Thread nD τ).loc main_arg4)) (ix3 k e d) := by
  show V m c main_v1 (((cfg0.win 2).blk t).view.emb (ix3 k d e)) = _
  have hi : ((cfg0.win 2).blk t).view.emb (ix3 k d e) = ix3 k d e := funext fun a => Fin.ext (by
    obtain ⟨-, -, -, -, -, -, -, e0, e1, e2, -⟩ := idx_facts t
    match a with
    | ⟨0, _⟩ => show win0_2.index t (0 : Fin 3) * 6 + 1 * k.val = k.val; omega
    | ⟨1, _⟩ => show win0_2.index t (1 : Fin 3) * 512 + 1 * d.val = d.val; omega
    | ⟨2, _⟩ => show win0_2.index t (2 : Fin 3) * 512 + 1 * e.val = e.val; omega)
  rw [hi, V_v1]
  exact transpose_ix3_021_apply (m ((c : Thread nD τ).loc main_arg4)) transposes_S6x512x512_S6x512x512_0_2_1 k d e

theorem blk3 (c : Dev nD) (t : Fin cfg0.N) (k : Fin 6) (e : Fin 512) :
    (iblk m c 3 t : Vec Ideal S6x512 .f32) (ix2 k e) = (m ((c : Thread nD τ).loc main_arg5)) (ix2 k e) := by
  show V m c main_arg5 (((cfg0.win 3).blk t).view.emb (ix2 k e)) = _
  rw [V_main_arg5]
  refine congrArg (m ((c : Thread nD τ).loc main_arg5)) (funext fun a => Fin.ext ?_)
  obtain ⟨-, -, -, -, -, -, -, -, -, -, e0, e1, -⟩ := idx_facts t
  match a with
  | ⟨0, _⟩ => show win0_3.index t (0 : Fin 2) * 6 + 1 * k.val = k.val; omega
  | ⟨1, _⟩ => show win0_3.index t (1 : Fin 2) * 512 + 1 * e.val = e.val; omega

theorem blk4 (c : Dev nD) (t : Fin cfg0.N) (f : Fin 3072) (d : Fin 512) :
    (iblk m c 4 t : Vec Ideal S3072x512 .bf16) (ix2 f d) = (m ((c : Thread nD τ).loc main_arg6)) (ix2 d f) := by
  show V m c main_v3 (((cfg0.win 4).blk t).view.emb (ix2 f d)) = _
  have hi : ((cfg0.win 4).blk t).view.emb (ix2 f d) = ix2 f d := funext fun a => Fin.ext (by
    obtain ⟨-, -, -, -, -, -, -, -, -, -, -, -, e0, e1, -⟩ := idx_facts t
    match a with
    | ⟨0, _⟩ => show win0_4.index t (0 : Fin 2) * 3072 + 1 * f.val = f.val; omega
    | ⟨1, _⟩ => show win0_4.index t (1 : Fin 2) * 512 + 1 * d.val = d.val; omega)
  rw [hi, V_v3]
  exact transpose_ix2_apply (m ((c : Thread nD τ).loc main_arg6)) transposes_S512x3072_S3072x512_1_0 f d

theorem blk5 (c : Dev nD) (t : Fin cfg0.N) (d : Fin 512) :
    (iblk m c 5 t : Vec Ideal S512 .f32) (ix1 d) = (m ((c : Thread nD τ).loc main_arg7)) (ix1 d) := by
  show V m c main_arg7 (((cfg0.win 5).blk t).view.emb (ix1 d)) = _
  rw [V_main_arg7]
  refine congrArg (m ((c : Thread nD τ).loc main_arg7)) (funext fun a => Fin.ext ?_)
  obtain ⟨-, -, -, -, -, -, -, -, -, -, -, -, -, -, e0, -⟩ := idx_facts t
  match a with
  | ⟨0, _⟩ => show win0_5.index t (0 : Fin 1) * 512 + 1 * d.val = d.val; omega

/-! ## What a point writes back, the cover, the array -/

/-- WHAT POINT `t` WRITES BACK is block `t` of `G` of the argument arrays. -/
theorem flushed_eq (c : Dev nD) (t : Fin cfg0.N) :
    (dats m 0 c).flushed 6 t = ((cfg0.win 6).blk t).view.read (Elt Ideal) (GK m c) := by
  rw [Cert.KernelIdeal.Value.flushed6_A]
  funext j
  obtain ⟨u, s, d, rfl⟩ : ∃ (u : Fin 1) (s d : Fin 512), j = ix3 u s d := ⟨j 0, j 1, j 2, eq_ix3 j⟩
  obtain rfl : u = 0 := Subsingleton.elim _ _
  show out0_A_6 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) scM0_0 (Memref.isWhole_whole _) (iblk m c 0 t) (iblk m c 1 t) (iblk m c 2 t) (iblk m c 3 t)
      (iblk m c 4 t) (iblk m c 5 t) (ix3 (0 : Fin 1) s d)
    = GK m c (((cfg0.win 6).blk t).view.emb (ix3 (0 : Fin 1) s d))
  refine (out_apply c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) scM0_0 (Memref.isWhole_whole _) (iblk m c 0 t) (iblk m c 1 t) (iblk m c 2 t) (iblk m c 3 t)
      (iblk m c 4 t) (iblk m c 5 t) s d).trans ?_
  have hi : ((cfg0.win 6).blk t).view.emb (ix3 (0 : Fin 1) s d) = ix3 (bt t) s d := funext fun a => Fin.ext (by
    obtain ⟨-, -, -, -, -, -, -, -, -, -, -, -, -, -, -, e0, e1, e2⟩ := idx_facts t
    match a with
    | ⟨0, _⟩ => show win0_6.index t (0 : Fin 3) * 1 + 1 * 0 = t.val; omega
    | ⟨1, _⟩ => show win0_6.index t (1 : Fin 3) * 512 + 1 * s.val = s.val; omega
    | ⟨2, _⟩ => show win0_6.index t (2 : Fin 3) * 512 + 1 * d.val = d.val; omega)
  rw [hi]
  have hA : A (iblk m c 0 t) = fun h s t' => (m ((c : Thread nD τ).loc main_arg0)) (ix4 h (bt t) s t') :=
    funext fun h => funext fun s => funext fun t' => blk0 m c t h s t'
  have hX : X0 (iblk m c 1 t) = fun s d => (m ((c : Thread nD τ).loc main_arg1)) (ix3 (bt t) s d) :=
    funext fun s => funext fun d => blk1 m c t s d
  have hW : W (iblk m c 2 t) = fun k e d => (m ((c : Thread nD τ).loc main_arg4)) (ix3 k e d) :=
    funext fun k => funext fun e => funext fun d => blk2 m c t k d e
  have hB : B (iblk m c 3 t) = fun k e => (m ((c : Thread nD τ).loc main_arg5)) (ix2 k e) :=
    funext fun k => funext fun e => blk3 m c t k e
  have hWo : Wo (iblk m c 4 t) = fun d f => (m ((c : Thread nD τ).loc main_arg6)) (ix2 d f) :=
    funext fun d => funext fun f => blk4 m c t f d
  have hBo : Bo (iblk m c 5 t) = fun d => (m ((c : Thread nD τ).loc main_arg7)) (ix1 d) :=
    funext fun d => blk5 m c t d
  rw [hA, hX, hW, hB, hWo, hBo]
  exact (Cert.Gnn.G_apply _ _ _ _ _ _ (bt t) s d).symm

/-- An index of the result array is in point `t`'s block iff each coordinate is in the block's range on its axis. -/
theorem mem_blk (t : Fin cfg0.N) (i : S16x512x512.Idx) :
    i ∈ ((cfg0.win 6).blk t).view.set ↔ ∀ a : Fin 3, win0_6.index t a * S1x512x512.size a ≤ (i a).val ∧ (i a).val < win0_6.index t a * S1x512x512.size a + S1x512x512.size a := by
  show i ∈ ((View.whole main_v4).slice (win0_6.rect t)).set ↔ _
  rw [View.set_slice_whole, Rect.mem_set_unit]
  exact Iff.rfl

/-- Every index of the result array is in the block of the point of its batch coordinate. -/
theorem cover (i : S16x512x512.Idx) :
    ∃ t : Fin cfg0.N, (cfg0.win 6).flush t = true ∧ i ∈ ((cfg0.win 6).blk t).view.set := by
  have hN : cfg0.N = 16 := N_0
  have h0 : (i 0).val < 16 := (i 0).isLt
  have h1 : (i 1).val < 512 := (i 1).isLt
  have h2 : (i 2).val < 512 := (i 2).isLt
  obtain ⟨tt, htt⟩ : ∃ tt : Fin cfg0.N, tt.val = (i 0).val := ⟨⟨(i 0).val, by omega⟩, rfl⟩
  refine ⟨tt, flush0_6 _, ?_⟩
  rw [mem_blk]
  obtain ⟨-, -, -, -, -, -, -, -, -, -, -, -, -, -, -, e0, e1, e2⟩ := idx_facts tt
  intro a
  match a with
  | ⟨0, _⟩ => show win0_6.index tt (0 : Fin 3) * 1 ≤ (i 0).val ∧ (i 0).val < win0_6.index tt (0 : Fin 3) * 1 + 1; omega
  | ⟨1, _⟩ => show win0_6.index tt (1 : Fin 3) * 512 ≤ (i 1).val ∧ (i 1).val < win0_6.index tt (1 : Fin 3) * 512 + 512; omega
  | ⟨2, _⟩ => show win0_6.index tt (2 : Fin 3) * 512 ≤ (i 2).val ∧ (i 2).val < win0_6.index tt (2 : Fin 3) * 512 + 512; omega

/-- THE RESULT ARRAY after the run is `G` of the argument arrays. -/
theorem final (c : Dev nD) : (dats m 0 c).arrAt 6 cfg0.N = GK m c :=
  (dats m 0 c).arrAt_eq_of_cover 6 (GK m c) (fun t _ => flushed_eq m c t) cover

/-- The kernel's run, with the result array named. -/
theorem run : θ_run defs (onTc (τ := τ) (main (F := Ideal))) ⟨m, fun _ => 0, ρ⟩ fun r => ∀ c : Dev nD,
      r.2.mem ((c : Thread nD τ).loc main_v4) = GK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.KernelIdeal.Arr

end
-- ==== Proof.RefValue.lean ====
/-
  The reference program computes the function `Cert.Gnn.G`.

  Each head's adjacency matrix is a slice of the first argument read as a rank-3 array; its row sums plus one are the
  denominators. A layer is read from the inside out: the adjacency product with the features, the residual, the dense
  map with the layer's weight, twice the bias, the quotient by the denominator and the positive part. The six layer
  outputs are joined along the last axis, pair `k` in columns `512 k …`, and the output map, the output bias and the
  input features are added. Both sides perform the same operations in the same order, so every step is a re-indexing.
-/
import proofs.«173532_j90305982366173_1_alg».proof.Proof.Gen.ReferenceIdeal.Read
import proofs.«173532_j90305982366173_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx Idealize.ShloMosaic.TcCoe Cert.ReferenceIdeal Cert.ReferenceIdeal.Gen Cert.ReferenceIdeal.Read

namespace Cert.ReferenceIdeal.RefValue

/-! ## Row-major coordinates of the literal shapes -/

theorem rm3_0 (b : Fin 16) (s t : Fin 512) : ((b.val * 512 + s.val) * 512 + t.val) / 262144 % 16 = b.val := by
  have := b.isLt; have := s.isLt; have := t.isLt; omega
theorem rm3_1 (b : Fin 16) (s t : Fin 512) : ((b.val * 512 + s.val) * 512 + t.val) / 512 % 512 = s.val := by
  have := b.isLt; have := s.isLt; have := t.isLt; omega
theorem rm3_2 (b : Fin 16) (s t : Fin 512) : ((b.val * 512 + s.val) * 512 + t.val) % 512 = t.val := by
  have := b.isLt; have := s.isLt; have := t.isLt; omega
theorem rm2_0 (e d : Fin 512) : (e.val * 512 + d.val) / 512 % 512 = e.val := by
  have := e.isLt; have := d.isLt; omega
theorem rm2_1 (e d : Fin 512) : (e.val * 512 + d.val) % 512 = d.val := by
  have := e.isLt; have := d.isLt; omega
theorem rm1 (e : Fin 512) : e.val % 512 = e.val := by
  have := e.isLt; omega

/-! ## Head 0: its adjacency matrix and its denominators -/

/-- Head 0's adjacency matrix is the slice `0` of the first argument. -/
theorem adj_0 (x0 : (⟨S3x16x512x512, .f32⟩ : BufTy).Contents (Elt Ideal)) (b : Fin 16) (s t : Fin 512) :
    val_main_v1 (F := Ideal) x0 (ix3 b s t) = x0 (ix4 0 b s t) := by
  rw [val_main_v1_apply, val_main_v0_apply]
  exact congrArg x0 (funext fun a => Fin.ext (by
    match a with
    | ⟨0, _⟩ => rfl
    | ⟨1, _⟩ => exact rm3_0 b s t
    | ⟨2, _⟩ => exact rm3_1 b s t
    | ⟨3, _⟩ => exact rm3_2 b s t))

/-- Head 0's denominators: one plus the row sums of its adjacency matrix. -/
theorem den_0 (x0 : (⟨S3x16x512x512, .f32⟩ : BufTy).Contents (Elt Ideal)) (i : S16x512x1.Idx) :
    val_main_v5 (F := Ideal) x0 i = Cert.Gnn.den (fun h s t => x0 (ix4 h (i 0) s t)) 0 (i 1) := by
  rw [val_main_v5_apply, val_main_v3_apply, val_main_v2_apply, val_main_v4_apply, val_main_cst_apply, val_main_cst_0_apply]
  simp only [Ideal.addf_def, Ideal.ofBits_def, Ideal.ofBits_zero_f32, zero_add]
  unfold Cert.Gnn.den
  refine congrArg (· + Ideal.ofBits .f32 0x3F800000#32) (Finset.sum_congr rfl fun k _ => ?_)
  rw [show idx_main_v2 (idx_main_v3 i) k = ix3 (i 0) (i 1) k from funext fun a => Fin.ext (by match a with | ⟨0, _⟩ => rfl | ⟨1, _⟩ => rfl | ⟨2, _⟩ => rfl)]
  exact adj_0 x0 (i 0) (i 1) k

/-! ## Layer 0 (head 0, from the input features) -/

/-- The adjacency product with the features, plus the features. -/
theorem agg_0 (x0 : (⟨S3x16x512x512, .f32⟩ : BufTy).Contents (Elt Ideal)) (x1 : (⟨S16x512x512, .f32⟩ : BufTy).Contents (Elt Ideal)) (b : Fin 16) (s d : Fin 512) :
    val_main_v7 (F := Ideal) x0 x1 (ix3 b s d)
      = (∑ t : Fin 512, x0 (ix4 0 b s t) * x1 (ix3 b t d)) + x1 (ix3 b s d) := by
  rw [val_main_v7_apply, val_main_v6_apply]
  simp only [Ideal.addf_def]
  refine congrArg (· + x1 (ix3 b s d)) (Finset.sum_congr rfl fun t _ => ?_)
  rw [show lidx_main_v6 (ix3 b s d) t = ix3 b s t from funext fun a => Fin.ext (by match a with | ⟨0, _⟩ => rfl | ⟨1, _⟩ => rfl | ⟨2, _⟩ => rfl),
    show ridx_main_v6 (ix3 b s d) t = ix3 b t d from funext fun a => Fin.ext (by match a with | ⟨0, _⟩ => rfl | ⟨1, _⟩ => rfl | ⟨2, _⟩ => rfl), adj_0]

/-- The layer's weight is the slice `0` of the weights. -/
theorem w_0 (x4 : (⟨S6x512x512, .f32⟩ : BufTy).Contents (Elt Ideal)) (e d : Fin 512) :
    val_main_v9 (F := Ideal) x4 (ix2 e d) = x4 (ix3 0 e d) := by
  rw [val_main_v9_apply, val_main_v8_apply]
  exact congrArg x4 (funext fun a => Fin.ext (by
    match a with
    | ⟨0, _⟩ => rfl
    | ⟨1, _⟩ => exact rm2_0 e d
    | ⟨2, _⟩ => exact rm2_1 e d))

/-- Twice the layer's bias, along every row. -/
theorem bias_0 (x5 : (⟨S6x512, .f32⟩ : BufTy).Contents (Elt Ideal)) (b : Fin 16) (s e : Fin 512) :
    val_main_v16 (F := Ideal) x5 (ix3 b s e) = Ideal.ofBits .f32 0x40000000#32 * x5 (ix2 0 e) := by
  rw [val_main_v16_apply, val_main_v15_apply, val_main_v14_apply, val_main_v13_apply, val_main_cst_1_apply, val_main_v12_apply, val_main_v11_apply]
  simp only [Ideal.mulf_def, Ideal.ofBits_def]
  exact congrArg (fun z => Ideal.ofBits .f32 0x40000000#32 * x5 z) (funext fun a => Fin.ext (by
    match a with
    | ⟨0, _⟩ => rfl
    | ⟨1, _⟩ => exact rm1 e))

/-- The dense map of the aggregated features with the layer's weight. -/
theorem lin_0 (x0 : (⟨S3x16x512x512, .f32⟩ : BufTy).Contents (Elt Ideal)) (x1 : (⟨S16x512x512, .f32⟩ : BufTy).Contents (Elt Ideal)) (x4 : (⟨S6x512x512, .f32⟩ : BufTy).Contents (Elt Ideal)) (b : Fin 16) (s e : Fin 512) :
    val_main_v10 (F := Ideal) x0 x1 x4 (ix3 b s e)
      = ∑ d : Fin 512, ((∑ t : Fin 512, x0 (ix4 0 b s t) * x1 (ix3 b t d)) + x1 (ix3 b s d)) * x4 (ix3 0 e d) := by
  rw [val_main_v10_apply]
  refine Finset.sum_congr rfl fun d _ => ?_
  rw [show lidx_main_v10 (ix3 b s e) d = ix3 b s d from funext fun a => Fin.ext (by match a with | ⟨0, _⟩ => rfl | ⟨1, _⟩ => rfl | ⟨2, _⟩ => rfl),
    show ridx_main_v10 (ix3 b s e) d = ix2 e d from funext fun a => Fin.ext (by match a with | ⟨0, _⟩ => rfl | ⟨1, _⟩ => rfl), agg_0, w_0]

/-- Layer 0's output. -/
theorem layer_0 (x0 : (⟨S3x16x512x512, .f32⟩ : BufTy).Contents (Elt Ideal)) (x1 : (⟨S16x512x512, .f32⟩ : BufTy).Contents (Elt Ideal)) (x4 : (⟨S6x512x512, .f32⟩ : BufTy).Contents (Elt Ideal)) (x5 : (⟨S6x512, .f32⟩ : BufTy).Contents (Elt Ideal)) :
    val_main_v20 (F := Ideal) x0 x1 x4 x5 = fun i => Cert.Gnn.layer (fun h s t => x0 (ix4 h (i 0) s t)) (fun k e d => x4 (ix3 k e d)) (fun k e => x5 (ix2 k e)) 0 0 (fun t d => x1 (ix3 (i 0) t d)) (i 1) (i 2) := by
  funext i
  obtain ⟨b, s, e, rfl⟩ : ∃ b s e, i = ix3 b s e := ⟨i 0, i 1, i 2, eq_ix3 i⟩
  rw [val_main_v20_apply, val_main_v19_apply, val_main_v17_apply, lin_0, bias_0, val_main_v18_apply, val_main_call0_v0_apply, val_main_call0_cst_apply, den_0]
  rfl

/-! ## Layer 1 (head 0, on top of layer 0) -/

/-- The adjacency product with the features, plus the features. -/
theorem agg_1 (x0 : (⟨S3x16x512x512, .f32⟩ : BufTy).Contents (Elt Ideal)) (x1 : (⟨S16x512x512, .f32⟩ : BufTy).Contents (Elt Ideal)) (x4 : (⟨S6x512x512, .f32⟩ : BufTy).Contents (Elt Ideal)) (x5 : (⟨S6x512, .f32⟩ : BufTy).Contents (Elt Ideal)) (b : Fin 16) (s d : Fin 512) :
    val_main_v22 (F := Ideal) x0 x1 x4 x5 (ix3 b s d)
      = (∑ t : Fin 512, x0 (ix4 0 b s t) * (val_main_v20 (F := Ideal) x0 x1 x4 x5) (ix3 b t d)) + (val_main_v20 (F := Ideal) x0 x1 x4 x5) (ix3 b s d) := by
  rw [val_main_v22_apply, val_main_v21_apply]
  simp only [Ideal.addf_def]
  refine congrArg (· + (val_main_v20 (F := Ideal) x0 x1 x4 x5) (ix3 b s d)) (Finset.sum_congr rfl fun t _ => ?_)
  rw [show lidx_main_v21 (ix3 b s d) t = ix3 b s t from funext fun a => Fin.ext (by match a with | ⟨0, _⟩ => rfl | ⟨1, _⟩ => rfl | ⟨2, _⟩ => rfl),
    show ridx_main_v21 (ix3 b s d) t = ix3 b t d from funext fun a => Fin.ext (by match a with | ⟨0, _⟩ => rfl | ⟨1, _⟩ => rfl | ⟨2, _⟩ => rfl), adj_0]

/-- The layer's weight is the slice `1` of the weights. -/
theorem w_1 (x4 : (⟨S6x512x512, .f32⟩ : BufTy).Contents (Elt Ideal)) (e d : Fin 512) :
    val_main_v24 (F := Ideal) x4 (ix2 e d) = x4 (ix3 1 e d) := by
  rw [val_main_v24_apply, val_main_v23_apply]
  exact congrArg x4 (funext fun a => Fin.ext (by
    match a with
    | ⟨0, _⟩ => rfl
    | ⟨1, _⟩ => exact rm2_0 e d
    | ⟨2, _⟩ => exact rm2_1 e d))

/-- Twice the layer's bias, along every row. -/
theorem bias_1 (x5 : (⟨S6x512, .f32⟩ : BufTy).Contents (Elt Ideal)) (b : Fin 16) (s e : Fin 512) :
    val_main_v31 (F := Ideal) x5 (ix3 b s e) = Ideal.ofBits .f32 0x40000000#32 * x5 (ix2 1 e) := by
  rw [val_main_v31_apply, val_main_v30_apply, val_main_v29_apply, val_main_v28_apply, val_main_cst_2_apply, val_main_v27_apply, val_main_v26_apply]
  simp only [Ideal.mulf_def, Ideal.ofBits_def]
  exact congrArg (fun z => Ideal.ofBits .f32 0x40000000#32 * x5 z) (funext fun a => Fin.ext (by
    match a with
    | ⟨0, _⟩ => rfl
    | ⟨1, _⟩ => exact rm1 e))

/-- The dense map of the aggregated features with the layer's weight. -/
theorem lin_1 (x0 : (⟨S3x16x512x512, .f32⟩ : BufTy).Contents (Elt Ideal)) (x1 : (⟨S16x512x512, .f32⟩ : BufTy).Contents (Elt Ideal)) (x4 : (⟨S6x512x512, .f32⟩ : BufTy).Contents (Elt Ideal)) (x5 : (⟨S6x512, .f32⟩ : BufTy).Contents (Elt Ideal)) (b : Fin 16) (s e : Fin 512) :
    val_main_v25 (F := Ideal) x0 x1 x4 x5 (ix3 b s e)
      = ∑ d : Fin 512, ((∑ t : Fin 512, x0 (ix4 0 b s t) * (val_main_v20 (F := Ideal) x0 x1 x4 x5) (ix3 b t d)) + (val_main_v20 (F := Ideal) x0 x1 x4 x5) (ix3 b s d)) * x4 (ix3 1 e d) := by
  rw [val_main_v25_apply]
  refine Finset.sum_congr rfl fun d _ => ?_
  rw [show lidx_main_v25 (ix3 b s e) d = ix3 b s d from funext fun a => Fin.ext (by match a with | ⟨0, _⟩ => rfl | ⟨1, _⟩ => rfl | ⟨2, _⟩ => rfl),
    show ridx_main_v25 (ix3 b s e) d = ix2 e d from funext fun a => Fin.ext (by match a with | ⟨0, _⟩ => rfl | ⟨1, _⟩ => rfl), agg_1, w_1]

/-- Layer 1's output. -/
theorem layer_1 (x0 : (⟨S3x16x512x512, .f32⟩ : BufTy).Contents (Elt Ideal)) (x1 : (⟨S16x512x512, .f32⟩ : BufTy).Contents (Elt Ideal)) (x4 : (⟨S6x512x512, .f32⟩ : BufTy).Contents (Elt Ideal)) (x5 : (⟨S6x512, .f32⟩ : BufTy).Contents (Elt Ideal)) :
    val_main_v35 (F := Ideal) x0 x1 x4 x5 = fun i => Cert.Gnn.layer (fun h s t => x0 (ix4 h (i 0) s t)) (fun k e d => x4 (ix3 k e d)) (fun k e => x5 (ix2 k e)) 0 1 (Cert.Gnn.layer (fun h s t => x0 (ix4 h (i 0) s t)) (fun k e d => x4 (ix3 k e d)) (fun k e => x5 (ix2 k e)) 0 0 (fun t d => x1 (ix3 (i 0) t d))) (i 1) (i 2) := by
  funext i
  obtain ⟨b, s, e, rfl⟩ : ∃ b s e, i = ix3 b s e := ⟨i 0, i 1, i 2, eq_ix3 i⟩
  rw [val_main_v35_apply, val_main_v34_apply, val_main_v32_apply, lin_1, bias_1, val_main_v33_apply, val_main_call1_v0_apply, val_main_call1_cst_apply, den_0]
  simp only [layer_0]
  rfl

/-! ## Head 1: its adjacency matrix and its denominators -/

/-- Head 1's adjacency matrix is the slice `1` of the first argument. -/
theorem adj_1 (x0 : (⟨S3x16x512x512, .f32⟩ : BufTy).Contents (Elt Ideal)) (b : Fin 16) (s t : Fin 512) :
    val_main_v38 (F := Ideal) x0 (ix3 b s t) = x0 (ix4 1 b s t) := by
  rw [val_main_v38_apply, val_main_v37_apply]
  exact congrArg x0 (funext fun a => Fin.ext (by
    match a with
    | ⟨0, _⟩ => rfl
    | ⟨1, _⟩ => exact rm3_0 b s t
    | ⟨2, _⟩ => exact rm3_1 b s t
    | ⟨3, _⟩ => exact rm3_2 b s t))

/-- Head 1's denominators: one plus the row sums of its adjacency matrix. -/
theorem den_1 (x0 : (⟨S3x16x512x512, .f32⟩ : BufTy).Contents (Elt Ideal)) (i : S16x512x1.Idx) :
    val_main_v42 (F := Ideal) x0 i = Cert.Gnn.den (fun h s t => x0 (ix4 h (i 0) s t)) 1 (i 1) := by
  rw [val_main_v42_apply, val_main_v40_apply, val_main_v39_apply, val_main_v41_apply, val_main_cst_3_apply, val_main_cst_4_apply]
  simp only [Ideal.addf_def, Ideal.ofBits_def, Ideal.ofBits_zero_f32, zero_add]
  unfold Cert.Gnn.den
  refine congrArg (· + Ideal.ofBits .f32 0x3F800000#32) (Finset.sum_congr rfl fun k _ => ?_)
  rw [show idx_main_v39 (idx_main_v40 i) k = ix3 (i 0) (i 1) k from funext fun a => Fin.ext (by match a with | ⟨0, _⟩ => rfl | ⟨1, _⟩ => rfl | ⟨2, _⟩ => rfl)]
  exact adj_1 x0 (i 0) (i 1) k

/-! ## Layer 2 (head 1, from the input features) -/

/-- The adjacency product with the features, plus the features. -/
theorem agg_2 (x0 : (⟨S3x16x512x512, .f32⟩ : BufTy).Contents (Elt Ideal)) (x1 : (⟨S16x512x512, .f32⟩ : BufTy).Contents (Elt Ideal)) (b : Fin 16) (s d : Fin 512) :
    val_main_v44 (F := Ideal) x0 x1 (ix3 b s d)
      = (∑ t : Fin 512, x0 (ix4 1 b s t) * x1 (ix3 b t d)) + x1 (ix3 b s d) := by
  rw [val_main_v44_apply, val_main_v43_apply]
  simp only [Ideal.addf_def]
  refine congrArg (· + x1 (ix3 b s d)) (Finset.sum_congr rfl fun t _ => ?_)
  rw [show lidx_main_v43 (ix3 b s d) t = ix3 b s t from funext fun a => Fin.ext (by match a with | ⟨0, _⟩ => rfl | ⟨1, _⟩ => rfl | ⟨2, _⟩ => rfl),
    show ridx_main_v43 (ix3 b s d) t = ix3 b t d from funext fun a => Fin.ext (by match a with | ⟨0, _⟩ => rfl | ⟨1, _⟩ => rfl | ⟨2, _⟩ => rfl), adj_1]

/-- The layer's weight is the slice `2` of the weights. -/
theorem w_2 (x4 : (⟨S6x512x512, .f32⟩ : BufTy).Contents (Elt Ideal)) (e d : Fin 512) :
    val_main_v46 (F := Ideal) x4 (ix2 e d) = x4 (ix3 2 e d) := by
  rw [val_main_v46_apply, val_main_v45_apply]
  exact congrArg x4 (funext fun a => Fin.ext (by
    match a with
    | ⟨0, _⟩ => rfl
    | ⟨1, _⟩ => exact rm2_0 e d
    | ⟨2, _⟩ => exact rm2_1 e d))

/-- Twice the layer's bias, along every row. -/
theorem bias_2 (x5 : (⟨S6x512, .f32⟩ : BufTy).Contents (Elt Ideal)) (b : Fin 16) (s e : Fin 512) :
    val_main_v53 (F := Ideal) x5 (ix3 b s e) = Ideal.ofBits .f32 0x40000000#32 * x5 (ix2 2 e) := by
  rw [val_main_v53_apply, val_main_v52_apply, val_main_v51_apply, val_main_v50_apply, val_main_cst_5_apply, val_main_v49_apply, val_main_v48_apply]
  simp only [Ideal.mulf_def, Ideal.ofBits_def]
  exact congrArg (fun z => Ideal.ofBits .f32 0x40000000#32 * x5 z) (funext fun a => Fin.ext (by
    match a with
    | ⟨0, _⟩ => rfl
    | ⟨1, _⟩ => exact rm1 e))

/-- The dense map of the aggregated features with the layer's weight. -/
theorem lin_2 (x0 : (⟨S3x16x512x512, .f32⟩ : BufTy).Contents (Elt Ideal)) (x1 : (⟨S16x512x512, .f32⟩ : BufTy).Contents (Elt Ideal)) (x4 : (⟨S6x512x512, .f32⟩ : BufTy).Contents (Elt Ideal)) (b : Fin 16) (s e : Fin 512) :
    val_main_v47 (F := Ideal) x0 x1 x4 (ix3 b s e)
      = ∑ d : Fin 512, ((∑ t : Fin 512, x0 (ix4 1 b s t) * x1 (ix3 b t d)) + x1 (ix3 b s d)) * x4 (ix3 2 e d) := by
  rw [val_main_v47_apply]
  refine Finset.sum_congr rfl fun d _ => ?_
  rw [show lidx_main_v47 (ix3 b s e) d = ix3 b s d from funext fun a => Fin.ext (by match a with | ⟨0, _⟩ => rfl | ⟨1, _⟩ => rfl | ⟨2, _⟩ => rfl),
    show ridx_main_v47 (ix3 b s e) d = ix2 e d from funext fun a => Fin.ext (by match a with | ⟨0, _⟩ => rfl | ⟨1, _⟩ => rfl), agg_2, w_2]

/-- Layer 2's output. -/
theorem layer_2 (x0 : (⟨S3x16x512x512, .f32⟩ : BufTy).Contents (Elt Ideal)) (x1 : (⟨S16x512x512, .f32⟩ : BufTy).Contents (Elt Ideal)) (x4 : (⟨S6x512x512, .f32⟩ : BufTy).Contents (Elt Ideal)) (x5 : (⟨S6x512, .f32⟩ : BufTy).Contents (Elt Ideal)) :
    val_main_v57 (F := Ideal) x0 x1 x4 x5 = fun i => Cert.Gnn.layer (fun h s t => x0 (ix4 h (i 0) s t)) (fun k e d => x4 (ix3 k e d)) (fun k e => x5 (ix2 k e)) 1 2 (fun t d => x1 (ix3 (i 0) t d)) (i 1) (i 2) := by
  funext i
  obtain ⟨b, s, e, rfl⟩ : ∃ b s e, i = ix3 b s e := ⟨i 0, i 1, i 2, eq_ix3 i⟩
  rw [val_main_v57_apply, val_main_v56_apply, val_main_v54_apply, lin_2, bias_2, val_main_v55_apply, val_main_call2_v0_apply, val_main_call2_cst_apply, den_1]
  rfl

/-! ## Layer 3 (head 1, on top of layer 2) -/

/-- The adjacency product with the features, plus the features. -/
theorem agg_3 (x0 : (⟨S3x16x512x512, .f32⟩ : BufTy).Contents (Elt Ideal)) (x1 : (⟨S16x512x512, .f32⟩ : BufTy).Contents (Elt Ideal)) (x4 : (⟨S6x512x512, .f32⟩ : BufTy).Contents (Elt Ideal)) (x5 : (⟨S6x512, .f32⟩ : BufTy).Contents (Elt Ideal)) (b : Fin 16) (s d : Fin 512) :
    val_main_v59 (F := Ideal) x0 x1 x4 x5 (ix3 b s d)
      = (∑ t : Fin 512, x0 (ix4 1 b s t) * (val_main_v57 (F := Ideal) x0 x1 x4 x5) (ix3 b t d)) + (val_main_v57 (F := Ideal) x0 x1 x4 x5) (ix3 b s d) := by
  rw [val_main_v59_apply, val_main_v58_apply]
  simp only [Ideal.addf_def]
  refine congrArg (· + (val_main_v57 (F := Ideal) x0 x1 x4 x5) (ix3 b s d)) (Finset.sum_congr rfl fun t _ => ?_)
  rw [show lidx_main_v58 (ix3 b s d) t = ix3 b s t from funext fun a => Fin.ext (by match a with | ⟨0, _⟩ => rfl | ⟨1, _⟩ => rfl | ⟨2, _⟩ => rfl),
    show ridx_main_v58 (ix3 b s d) t = ix3 b t d from funext fun a => Fin.ext (by match a with | ⟨0, _⟩ => rfl | ⟨1, _⟩ => rfl | ⟨2, _⟩ => rfl), adj_1]

/-- The layer's weight is the slice `3` of the weights. -/
theorem w_3 (x4 : (⟨S6x512x512, .f32⟩ : BufTy).Contents (Elt Ideal)) (e d : Fin 512) :
    val_main_v61 (F := Ideal) x4 (ix2 e d) = x4 (ix3 3 e d) := by
  rw [val_main_v61_apply, val_main_v60_apply]
  exact congrArg x4 (funext fun a => Fin.ext (by
    match a with
    | ⟨0, _⟩ => rfl
    | ⟨1, _⟩ => exact rm2_0 e d
    | ⟨2, _⟩ => exact rm2_1 e d))

/-- Twice the layer's bias, along every row. -/
theorem bias_3 (x5 : (⟨S6x512, .f32⟩ : BufTy).Contents (Elt Ideal)) (b : Fin 16) (s e : Fin 512) :
    val_main_v68 (F := Ideal) x5 (ix3 b s e) = Ideal.ofBits .f32 0x40000000#32 * x5 (ix2 3 e) := by
  rw [val_main_v68_apply, val_main_v67_apply, val_main_v66_apply, val_main_v65_apply, val_main_cst_6_apply, val_main_v64_apply, val_main_v63_apply]
  simp only [Ideal.mulf_def, Ideal.ofBits_def]
  exact congrArg (fun z => Ideal.ofBits .f32 0x40000000#32 * x5 z) (funext fun a => Fin.ext (by
    match a with
    | ⟨0, _⟩ => rfl
    | ⟨1, _⟩ => exact rm1 e))

/-- The dense map of the aggregated features with the layer's weight. -/
theorem lin_3 (x0 : (⟨S3x16x512x512, .f32⟩ : BufTy).Contents (Elt Ideal)) (x1 : (⟨S16x512x512, .f32⟩ : BufTy).Contents (Elt Ideal)) (x4 : (⟨S6x512x512, .f32⟩ : BufTy).Contents (Elt Ideal)) (x5 : (⟨S6x512, .f32⟩ : BufTy).Contents (Elt Ideal)) (b : Fin 16) (s e : Fin 512) :
    val_main_v62 (F := Ideal) x0 x1 x4 x5 (ix3 b s e)
      = ∑ d : Fin 512, ((∑ t : Fin 512, x0 (ix4 1 b s t) * (val_main_v57 (F := Ideal) x0 x1 x4 x5) (ix3 b t d)) + (val_main_v57 (F := Ideal) x0 x1 x4 x5) (ix3 b s d)) * x4 (ix3 3 e d) := by
  rw [val_main_v62_apply]
  refine Finset.sum_congr rfl fun d _ => ?_
  rw [show lidx_main_v62 (ix3 b s e) d = ix3 b s d from funext fun a => Fin.ext (by match a with | ⟨0, _⟩ => rfl | ⟨1, _⟩ => rfl | ⟨2, _⟩ => rfl),
    show ridx_main_v62 (ix3 b s e) d = ix2 e d from funext fun a => Fin.ext (by match a with | ⟨0, _⟩ => rfl | ⟨1, _⟩ => rfl), agg_3, w_3]

/-- Layer 3's output. -/
theorem layer_3 (x0 : (⟨S3x16x512x512, .f32⟩ : BufTy).Contents (Elt Ideal)) (x1 : (⟨S16x512x512, .f32⟩ : BufTy).Contents (Elt Ideal)) (x4 : (⟨S6x512x512, .f32⟩ : BufTy).Contents (Elt Ideal)) (x5 : (⟨S6x512, .f32⟩ : BufTy).Contents (Elt Ideal)) :
    val_main_v72 (F := Ideal) x0 x1 x4 x5 = fun i => Cert.Gnn.layer (fun h s t => x0 (ix4 h (i 0) s t)) (fun k e d => x4 (ix3 k e d)) (fun k e => x5 (ix2 k e)) 1 3 (Cert.Gnn.layer (fun h s t => x0 (ix4 h (i 0) s t)) (fun k e d => x4 (ix3 k e d)) (fun k e => x5 (ix2 k e)) 1 2 (fun t d => x1 (ix3 (i 0) t d))) (i 1) (i 2) := by
  funext i
  obtain ⟨b, s, e, rfl⟩ : ∃ b s e, i = ix3 b s e := ⟨i 0, i 1, i 2, eq_ix3 i⟩
  rw [val_main_v72_apply, val_main_v71_apply, val_main_v69_apply, lin_3, bias_3, val_main_v70_apply, val_main_call3_v0_apply, val_main_call3_cst_apply, den_1]
  simp only [layer_2]
  rfl

/-! ## Head 2: its adjacency matrix and its denominators -/

/-- Head 2's adjacency matrix is the slice `2` of the first argument. -/
theorem adj_2 (x0 : (⟨S3x16x512x512, .f32⟩ : BufTy).Contents (Elt Ideal)) (b : Fin 16) (s t : Fin 512) :
    val_main_v75 (F := Ideal) x0 (ix3 b s t) = x0 (ix4 2 b s t) := by
  rw [val_main_v75_apply, val_main_v74_apply]
  exact congrArg x0 (funext fun a => Fin.ext (by
    match a with
    | ⟨0, _⟩ => rfl
    | ⟨1, _⟩ => exact rm3_0 b s t
    | ⟨2, _⟩ => exact rm3_1 b s t
    | ⟨3, _⟩ => exact rm3_2 b s t))

/-- Head 2's denominators: one plus the row sums of its adjacency matrix. -/
theorem den_2 (x0 : (⟨S3x16x512x512, .f32⟩ : BufTy).Contents (Elt Ideal)) (i : S16x512x1.Idx) :
    val_main_v79 (F := Ideal) x0 i = Cert.Gnn.den (fun h s t => x0 (ix4 h (i 0) s t)) 2 (i 1) := by
  rw [val_main_v79_apply, val_main_v77_apply, val_main_v76_apply, val_main_v78_apply, val_main_cst_7_apply, val_main_cst_8_apply]
  simp only [Ideal.addf_def, Ideal.ofBits_def, Ideal.ofBits_zero_f32, zero_add]
  unfold Cert.Gnn.den
  refine congrArg (· + Ideal.ofBits .f32 0x3F800000#32) (Finset.sum_congr rfl fun k _ => ?_)
  rw [show idx_main_v76 (idx_main_v77 i) k = ix3 (i 0) (i 1) k from funext fun a => Fin.ext (by match a with | ⟨0, _⟩ => rfl | ⟨1, _⟩ => rfl | ⟨2, _⟩ => rfl)]
  exact adj_2 x0 (i 0) (i 1) k

/-! ## Layer 4 (head 2, from the input features) -/

/-- The adjacency product with the features, plus the features. -/
theorem agg_4 (x0 : (⟨S3x16x512x512, .f32⟩ : BufTy).Contents (Elt Ideal)) (x1 : (⟨S16x512x512, .f32⟩ : BufTy).Contents (Elt Ideal)) (b : Fin 16) (s d : Fin 512) :
    val_main_v81 (F := Ideal) x0 x1 (ix3 b s d)
      = (∑ t : Fin 512, x0 (ix4 2 b s t) * x1 (ix3 b t d)) + x1 (ix3 b s d) := by
  rw [val_main_v81_apply, val_main_v80_apply]
  simp only [Ideal.addf_def]
  refine congrArg (· + x1 (ix3 b s d)) (Finset.sum_congr rfl fun t _ => ?_)
  rw [show lidx_main_v80 (ix3 b s d) t = ix3 b s t from funext fun a => Fin.ext (by match a with | ⟨0, _⟩ => rfl | ⟨1, _⟩ => rfl | ⟨2, _⟩ => rfl),
    show ridx_main_v80 (ix3 b s d) t = ix3 b t d from funext fun a => Fin.ext (by match a with | ⟨0, _⟩ => rfl | ⟨1, _⟩ => rfl | ⟨2, _⟩ => rfl), adj_2]

/-- The layer's weight is the slice `4` of the weights. -/
theorem w_4 (x4 : (⟨S6x512x512, .f32⟩ : BufTy).Contents (Elt Ideal)) (e d : Fin 512) :
    val_main_v83 (F := Ideal) x4 (ix2 e d) = x4 (ix3 4 e d) := by
  rw [val_main_v83_apply, val_main_v82_apply]
  exact congrArg x4 (funext fun a => Fin.ext (by
    match a with
    | ⟨0, _⟩ => rfl
    | ⟨1, _⟩ => exact rm2_0 e d
    | ⟨2, _⟩ => exact rm2_1 e d))

/-- Twice the layer's bias, along every row. -/
theorem bias_4 (x5 : (⟨S6x512, .f32⟩ : BufTy).Contents (Elt Ideal)) (b : Fin 16) (s e : Fin 512) :
    val_main_v90 (F := Ideal) x5 (ix3 b s e) = Ideal.ofBits .f32 0x40000000#32 * x5 (ix2 4 e) := by
  rw [val_main_v90_apply, val_main_v89_apply, val_main_v88_apply, val_main_v87_apply, val_main_cst_9_apply, val_main_v86_apply, val_main_v85_apply]
  simp only [Ideal.mulf_def, Ideal.ofBits_def]
  exact congrArg (fun z => Ideal.ofBits .f32 0x40000000#32 * x5 z) (funext fun a => Fin.ext (by
    match a with
    | ⟨0, _⟩ => rfl
    | ⟨1, _⟩ => exact rm1 e))

/-- The dense map of the aggregated features with the layer's weight. -/
theorem lin_4 (x0 : (⟨S3x16x512x512, .f32⟩ : BufTy).Contents (Elt Ideal)) (x1 : (⟨S16x512x512, .f32⟩ : BufTy).Contents (Elt Ideal)) (x4 : (⟨S6x512x512, .f32⟩ : BufTy).Contents (Elt Ideal)) (b : Fin 16) (s e : Fin 512) :
    val_main_v84 (F := Ideal) x0 x1 x4 (ix3 b s e)
      = ∑ d : Fin 512, ((∑ t : Fin 512, x0 (ix4 2 b s t) * x1 (ix3 b t d)) + x1 (ix3 b s d)) * x4 (ix3 4 e d) := by
  rw [val_main_v84_apply]
  refine Finset.sum_congr rfl fun d _ => ?_
  rw [show lidx_main_v84 (ix3 b s e) d = ix3 b s d from funext fun a => Fin.ext (by match a with | ⟨0, _⟩ => rfl | ⟨1, _⟩ => rfl | ⟨2, _⟩ => rfl),
    show ridx_main_v84 (ix3 b s e) d = ix2 e d from funext fun a => Fin.ext (by match a with | ⟨0, _⟩ => rfl | ⟨1, _⟩ => rfl), agg_4, w_4]

/-- Layer 4's output. -/
theorem layer_4 (x0 : (⟨S3x16x512x512, .f32⟩ : BufTy).Contents (Elt Ideal)) (x1 : (⟨S16x512x512, .f32⟩ : BufTy).Contents (Elt Ideal)) (x4 : (⟨S6x512x512, .f32⟩ : BufTy).Contents (Elt Ideal)) (x5 : (⟨S6x512, .f32⟩ : BufTy).Contents (Elt Ideal)) :
    val_main_v94 (F := Ideal) x0 x1 x4 x5 = fun i => Cert.Gnn.layer (fun h s t => x0 (ix4 h (i 0) s t)) (fun k e d => x4 (ix3 k e d)) (fun k e => x5 (ix2 k e)) 2 4 (fun t d => x1 (ix3 (i 0) t d)) (i 1) (i 2) := by
  funext i
  obtain ⟨b, s, e, rfl⟩ : ∃ b s e, i = ix3 b s e := ⟨i 0, i 1, i 2, eq_ix3 i⟩
  rw [val_main_v94_apply, val_main_v93_apply, val_main_v91_apply, lin_4, bias_4, val_main_v92_apply, val_main_call4_v0_apply, val_main_call4_cst_apply, den_2]
  rfl

/-! ## Layer 5 (head 2, on top of layer 4) -/

/-- The adjacency product with the features, plus the features. -/
theorem agg_5 (x0 : (⟨S3x16x512x512, .f32⟩ : BufTy).Contents (Elt Ideal)) (x1 : (⟨S16x512x512, .f32⟩ : BufTy).Contents (Elt Ideal)) (x4 : (⟨S6x512x512, .f32⟩ : BufTy).Contents (Elt Ideal)) (x5 : (⟨S6x512, .f32⟩ : BufTy).Contents (Elt Ideal)) (b : Fin 16) (s d : Fin 512) :
    val_main_v96 (F := Ideal) x0 x1 x4 x5 (ix3 b s d)
      = (∑ t : Fin 512, x0 (ix4 2 b s t) * (val_main_v94 (F := Ideal) x0 x1 x4 x5) (ix3 b t d)) + (val_main_v94 (F := Ideal) x0 x1 x4 x5) (ix3 b s d) := by
  rw [val_main_v96_apply, val_main_v95_apply]
  simp only [Ideal.addf_def]
  refine congrArg (· + (val_main_v94 (F := Ideal) x0 x1 x4 x5) (ix3 b s d)) (Finset.sum_congr rfl fun t _ => ?_)
  rw [show lidx_main_v95 (ix3 b s d) t = ix3 b s t from funext fun a => Fin.ext (by match a with | ⟨0, _⟩ => rfl | ⟨1, _⟩ => rfl | ⟨2, _⟩ => rfl),
    show ridx_main_v95 (ix3 b s d) t = ix3 b t d from funext fun a => Fin.ext (by match a with | ⟨0, _⟩ => rfl | ⟨1, _⟩ => rfl | ⟨2, _⟩ => rfl), adj_2]

/-- The layer's weight is the slice `5` of the weights. -/
theorem w_5 (x4 : (⟨S6x512x512, .f32⟩ : BufTy).Contents (Elt Ideal)) (e d : Fin 512) :
    val_main_v98 (F := Ideal) x4 (ix2 e d) = x4 (ix3 5 e d) := by
  rw [val_main_v98_apply, val_main_v97_apply]
  exact congrArg x4 (funext fun a => Fin.ext (by
    match a with
    | ⟨0, _⟩ => rfl
    | ⟨1, _⟩ => exact rm2_0 e d
    | ⟨2, _⟩ => exact rm2_1 e d))

/-- Twice the layer's bias, along every row. -/
theorem bias_5 (x5 : (⟨S6x512, .f32⟩ : BufTy).Contents (Elt Ideal)) (b : Fin 16) (s e : Fin 512) :
    val_main_v105 (F := Ideal) x5 (ix3 b s e) = Ideal.ofBits .f32 0x40000000#32 * x5 (ix2 5 e) := by
  rw [val_main_v105_apply, val_main_v104_apply, val_main_v103_apply, val_main_v102_apply, val_main_cst_10_apply, val_main_v101_apply, val_main_v100_apply]
  simp only [Ideal.mulf_def, Ideal.ofBits_def]
  exact congrArg (fun z => Ideal.ofBits .f32 0x40000000#32 * x5 z) (funext fun a => Fin.ext (by
    match a with
    | ⟨0, _⟩ => rfl
    | ⟨1, _⟩ => exact rm1 e))

/-- The dense map of the aggregated features with the layer's weight. -/
theorem lin_5 (x0 : (⟨S3x16x512x512, .f32⟩ : BufTy).Contents (Elt Ideal)) (x1 : (⟨S16x512x512, .f32⟩ : BufTy).Contents (Elt Ideal)) (x4 : (⟨S6x512x512, .f32⟩ : BufTy).Contents (Elt Ideal)) (x5 : (⟨S6x512, .f32⟩ : BufTy).Contents (Elt Ideal)) (b : Fin 16) (s e : Fin 512) :
    val_main_v99 (F := Ideal) x0 x1 x4 x5 (ix3 b s e)
      = ∑ d : Fin 512, ((∑ t : Fin 512, x0 (ix4 2 b s t) * (val_main_v94 (F := Ideal) x0 x1 x4 x5) (ix3 b t d)) + (val_main_v94 (F := Ideal) x0 x1 x4 x5) (ix3 b s d)) * x4 (ix3 5 e d) := by
  rw [val_main_v99_apply]
  refine Finset.sum_congr rfl fun d _ => ?_
  rw [show lidx_main_v99 (ix3 b s e) d = ix3 b s d from funext fun a => Fin.ext (by match a with | ⟨0, _⟩ => rfl | ⟨1, _⟩ => rfl | ⟨2, _⟩ => rfl),
    show ridx_main_v99 (ix3 b s e) d = ix2 e d from funext fun a => Fin.ext (by match a with | ⟨0, _⟩ => rfl | ⟨1, _⟩ => rfl), agg_5, w_5]

/-- Layer 5's output. -/
theorem layer_5 (x0 : (⟨S3x16x512x512, .f32⟩ : BufTy).Contents (Elt Ideal)) (x1 : (⟨S16x512x512, .f32⟩ : BufTy).Contents (Elt Ideal)) (x4 : (⟨S6x512x512, .f32⟩ : BufTy).Contents (Elt Ideal)) (x5 : (⟨S6x512, .f32⟩ : BufTy).Contents (Elt Ideal)) :
    val_main_v109 (F := Ideal) x0 x1 x4 x5 = fun i => Cert.Gnn.layer (fun h s t => x0 (ix4 h (i 0) s t)) (fun k e d => x4 (ix3 k e d)) (fun k e => x5 (ix2 k e)) 2 5 (Cert.Gnn.layer (fun h s t => x0 (ix4 h (i 0) s t)) (fun k e d => x4 (ix3 k e d)) (fun k e => x5 (ix2 k e)) 2 4 (fun t d => x1 (ix3 (i 0) t d))) (i 1) (i 2) := by
  funext i
  obtain ⟨b, s, e, rfl⟩ : ∃ b s e, i = ix3 b s e := ⟨i 0, i 1, i 2, eq_ix3 i⟩
  rw [val_main_v109_apply, val_main_v108_apply, val_main_v106_apply, lin_5, bias_5, val_main_v107_apply, val_main_call5_v0_apply, val_main_call5_cst_apply, den_2]
  simp only [layer_4]
  rfl

/-! ## The six outputs side by side -/

/-- The pair of head 0: columns below 512 are its first layer's. -/
theorem catL_0 (x0 : (⟨S3x16x512x512, .f32⟩ : BufTy).Contents (Elt Ideal)) (x1 : (⟨S16x512x512, .f32⟩ : BufTy).Contents (Elt Ideal)) (x4 : (⟨S6x512x512, .f32⟩ : BufTy).Contents (Elt Ideal)) (x5 : (⟨S6x512, .f32⟩ : BufTy).Contents (Elt Ideal)) (b : Fin 16) (s : Fin 512) (c : Fin 1024) (e : Fin 512)
    (hc : c.val = e.val) :
    val_main_v36 (F := Ideal) x0 x1 x4 x5 (ix3 b s c) = val_main_v20 (F := Ideal) x0 x1 x4 x5 (ix3 b s e) := by
  unfold val_main_v36
  exact concatenate_pair_apply_left 2 _ _ concatenates_S16x512x512_S16x512x512_S16x512x1024_d2 _ rfl _ (fun a => by
    match a with
    | ⟨0, _⟩ => rfl
    | ⟨1, _⟩ => rfl
    | ⟨2, _⟩ => exact hc.symm)

/-- The pair of head 0: columns from 512 on are its second layer's. -/
theorem catR_0 (x0 : (⟨S3x16x512x512, .f32⟩ : BufTy).Contents (Elt Ideal)) (x1 : (⟨S16x512x512, .f32⟩ : BufTy).Contents (Elt Ideal)) (x4 : (⟨S6x512x512, .f32⟩ : BufTy).Contents (Elt Ideal)) (x5 : (⟨S6x512, .f32⟩ : BufTy).Contents (Elt Ideal)) (b : Fin 16) (s : Fin 512) (c : Fin 1024) (e : Fin 512)
    (hc : e.val + 512 = c.val) :
    val_main_v36 (F := Ideal) x0 x1 x4 x5 (ix3 b s c) = val_main_v35 (F := Ideal) x0 x1 x4 x5 (ix3 b s e) := by
  unfold val_main_v36
  exact concatenate_pair_apply_right 2 _ _ concatenates_S16x512x512_S16x512x512_S16x512x1024_d2 _ rfl rfl _
    (fun a ha => by
      match a with
      | ⟨0, _⟩ => rfl
      | ⟨1, _⟩ => rfl
      | ⟨2, _⟩ => exact absurd rfl ha)
    hc

/-- The three pairs joined: columns `1024 · 0 …` are head 0's pair. -/
theorem cat3_0 (x0 : (⟨S3x16x512x512, .f32⟩ : BufTy).Contents (Elt Ideal)) (x1 : (⟨S16x512x512, .f32⟩ : BufTy).Contents (Elt Ideal)) (x4 : (⟨S6x512x512, .f32⟩ : BufTy).Contents (Elt Ideal)) (x5 : (⟨S6x512, .f32⟩ : BufTy).Contents (Elt Ideal)) (b : Fin 16) (s : Fin 512) (f : Fin 3072) (c : Fin 1024)
    (hc : 0 + c.val = f.val) :
    val_main_v111 (F := Ideal) x0 x1 x4 x5 (ix3 b s f) = val_main_v36 (F := Ideal) x0 x1 x4 x5 (ix3 b s c) := by
  unfold val_main_v111
  exact concatenate_apply_piece (t := S16x512x3072) 2
    [⟨S16x512x1024, val_main_v36 (F := Ideal) x0 x1 x4 x5⟩, ⟨S16x512x1024, val_main_v73 (F := Ideal) x0 x1 x4 x5⟩, ⟨S16x512x1024, val_main_v110 (F := Ideal) x0 x1 x4 x5⟩]
    concatenates_S16x512x1024_S16x512x1024_S16x512x1024_S16x512x3072_d2 _ 0 (by show (0 : Nat) < 3; omega)
    S16x512x1024 _ rfl rfl 0 rfl (ix3 b s c)
    (fun a ha => by
      match a with
      | ⟨0, _⟩ => rfl
      | ⟨1, _⟩ => rfl
      | ⟨2, _⟩ => exact absurd rfl ha)
    hc

/-- The pair of head 1: columns below 512 are its first layer's. -/
theorem catL_1 (x0 : (⟨S3x16x512x512, .f32⟩ : BufTy).Contents (Elt Ideal)) (x1 : (⟨S16x512x512, .f32⟩ : BufTy).Contents (Elt Ideal)) (x4 : (⟨S6x512x512, .f32⟩ : BufTy).Contents (Elt Ideal)) (x5 : (⟨S6x512, .f32⟩ : BufTy).Contents (Elt Ideal)) (b : Fin 16) (s : Fin 512) (c : Fin 1024) (e : Fin 512)
    (hc : c.val = e.val) :
    val_main_v73 (F := Ideal) x0 x1 x4 x5 (ix3 b s c) = val_main_v57 (F := Ideal) x0 x1 x4 x5 (ix3 b s e) := by
  unfold val_main_v73
  exact concatenate_pair_apply_left 2 _ _ concatenates_S16x512x512_S16x512x512_S16x512x1024_d2 _ rfl _ (fun a => by
    match a with
    | ⟨0, _⟩ => rfl
    | ⟨1, _⟩ => rfl
    | ⟨2, _⟩ => exact hc.symm)

/-- The pair of head 1: columns from 512 on are its second layer's. -/
theorem catR_1 (x0 : (⟨S3x16x512x512, .f32⟩ : BufTy).Contents (Elt Ideal)) (x1 : (⟨S16x512x512, .f32⟩ : BufTy).Contents (Elt Ideal)) (x4 : (⟨S6x512x512, .f32⟩ : BufTy).Contents (Elt Ideal)) (x5 : (⟨S6x512, .f32⟩ : BufTy).Contents (Elt Ideal)) (b : Fin 16) (s : Fin 512) (c : Fin 1024) (e : Fin 512)
    (hc : e.val + 512 = c.val) :
    val_main_v73 (F := Ideal) x0 x1 x4 x5 (ix3 b s c) = val_main_v72 (F := Ideal) x0 x1 x4 x5 (ix3 b s e) := by
  unfold val_main_v73
  exact concatenate_pair_apply_right 2 _ _ concatenates_S16x512x512_S16x512x512_S16x512x1024_d2 _ rfl rfl _
    (fun a ha => by
      match a with
      | ⟨0, _⟩ => rfl
      | ⟨1, _⟩ => rfl
      | ⟨2, _⟩ => exact absurd rfl ha)
    hc

/-- The three pairs joined: columns `1024 · 1 …` are head 1's pair. -/
theorem cat3_1 (x0 : (⟨S3x16x512x512, .f32⟩ : BufTy).Contents (Elt Ideal)) (x1 : (⟨S16x512x512, .f32⟩ : BufTy).Contents (Elt Ideal)) (x4 : (⟨S6x512x512, .f32⟩ : BufTy).Contents (Elt Ideal)) (x5 : (⟨S6x512, .f32⟩ : BufTy).Contents (Elt Ideal)) (b : Fin 16) (s : Fin 512) (f : Fin 3072) (c : Fin 1024)
    (hc : 1024 + c.val = f.val) :
    val_main_v111 (F := Ideal) x0 x1 x4 x5 (ix3 b s f) = val_main_v73 (F := Ideal) x0 x1 x4 x5 (ix3 b s c) := by
  unfold val_main_v111
  exact concatenate_apply_piece (t := S16x512x3072) 2
    [⟨S16x512x1024, val_main_v36 (F := Ideal) x0 x1 x4 x5⟩, ⟨S16x512x1024, val_main_v73 (F := Ideal) x0 x1 x4 x5⟩, ⟨S16x512x1024, val_main_v110 (F := Ideal) x0 x1 x4 x5⟩]
    concatenates_S16x512x1024_S16x512x1024_S16x512x1024_S16x512x3072_d2 _ 1 (by show (1 : Nat) < 3; omega)
    S16x512x1024 _ rfl rfl 1024 rfl (ix3 b s c)
    (fun a ha => by
      match a with
      | ⟨0, _⟩ => rfl
      | ⟨1, _⟩ => rfl
      | ⟨2, _⟩ => exact absurd rfl ha)
    hc

/-- The pair of head 2: columns below 512 are its first layer's. -/
theorem catL_2 (x0 : (⟨S3x16x512x512, .f32⟩ : BufTy).Contents (Elt Ideal)) (x1 : (⟨S16x512x512, .f32⟩ : BufTy).Contents (Elt Ideal)) (x4 : (⟨S6x512x512, .f32⟩ : BufTy).Contents (Elt Ideal)) (x5 : (⟨S6x512, .f32⟩ : BufTy).Contents (Elt Ideal)) (b : Fin 16) (s : Fin 512) (c : Fin 1024) (e : Fin 512)
    (hc : c.val = e.val) :
    val_main_v110 (F := Ideal) x0 x1 x4 x5 (ix3 b s c) = val_main_v94 (F := Ideal) x0 x1 x4 x5 (ix3 b s e) := by
  unfold val_main_v110
  exact concatenate_pair_apply_left 2 _ _ concatenates_S16x512x512_S16x512x512_S16x512x1024_d2 _ rfl _ (fun a => by
    match a with
    | ⟨0, _⟩ => rfl
    | ⟨1, _⟩ => rfl
    | ⟨2, _⟩ => exact hc.symm)

/-- The pair of head 2: columns from 512 on are its second layer's. -/
theorem catR_2 (x0 : (⟨S3x16x512x512, .f32⟩ : BufTy).Contents (Elt Ideal)) (x1 : (⟨S16x512x512, .f32⟩ : BufTy).Contents (Elt Ideal)) (x4 : (⟨S6x512x512, .f32⟩ : BufTy).Contents (Elt Ideal)) (x5 : (⟨S6x512, .f32⟩ : BufTy).Contents (Elt Ideal)) (b : Fin 16) (s : Fin 512) (c : Fin 1024) (e : Fin 512)
    (hc : e.val + 512 = c.val) :
    val_main_v110 (F := Ideal) x0 x1 x4 x5 (ix3 b s c) = val_main_v109 (F := Ideal) x0 x1 x4 x5 (ix3 b s e) := by
  unfold val_main_v110
  exact concatenate_pair_apply_right 2 _ _ concatenates_S16x512x512_S16x512x512_S16x512x1024_d2 _ rfl rfl _
    (fun a ha => by
      match a with
      | ⟨0, _⟩ => rfl
      | ⟨1, _⟩ => rfl
      | ⟨2, _⟩ => exact absurd rfl ha)
    hc

/-- The three pairs joined: columns `1024 · 2 …` are head 2's pair. -/
theorem cat3_2 (x0 : (⟨S3x16x512x512, .f32⟩ : BufTy).Contents (Elt Ideal)) (x1 : (⟨S16x512x512, .f32⟩ : BufTy).Contents (Elt Ideal)) (x4 : (⟨S6x512x512, .f32⟩ : BufTy).Contents (Elt Ideal)) (x5 : (⟨S6x512, .f32⟩ : BufTy).Contents (Elt Ideal)) (b : Fin 16) (s : Fin 512) (f : Fin 3072) (c : Fin 1024)
    (hc : 2048 + c.val = f.val) :
    val_main_v111 (F := Ideal) x0 x1 x4 x5 (ix3 b s f) = val_main_v110 (F := Ideal) x0 x1 x4 x5 (ix3 b s c) := by
  unfold val_main_v111
  exact concatenate_apply_piece (t := S16x512x3072) 2
    [⟨S16x512x1024, val_main_v36 (F := Ideal) x0 x1 x4 x5⟩, ⟨S16x512x1024, val_main_v73 (F := Ideal) x0 x1 x4 x5⟩, ⟨S16x512x1024, val_main_v110 (F := Ideal) x0 x1 x4 x5⟩]
    concatenates_S16x512x1024_S16x512x1024_S16x512x1024_S16x512x3072_d2 _ 2 (by show (2 : Nat) < 3; omega)
    S16x512x1024 _ rfl rfl 2048 rfl (ix3 b s c)
    (fun a ha => by
      match a with
      | ⟨0, _⟩ => rfl
      | ⟨1, _⟩ => rfl
      | ⟨2, _⟩ => exact absurd rfl ha)
    hc

/-- Column `512 k + e` of the joined array is column `e` of pair `k`. -/
theorem side_eq (x0 : (⟨S3x16x512x512, .f32⟩ : BufTy).Contents (Elt Ideal)) (x1 : (⟨S16x512x512, .f32⟩ : BufTy).Contents (Elt Ideal)) (x4 : (⟨S6x512x512, .f32⟩ : BufTy).Contents (Elt Ideal)) (x5 : (⟨S6x512, .f32⟩ : BufTy).Contents (Elt Ideal)) (b : Fin 16) (s : Fin 512) (f : Fin 3072) :
    val_main_v111 (F := Ideal) x0 x1 x4 x5 (ix3 b s f) = Cert.Gnn.side (fun h s t => x0 (ix4 h b s t)) (fun t d => x1 (ix3 b t d)) (fun k e d => x4 (ix3 k e d)) (fun k e => x5 (ix2 k e)) s f := by
  have hf := f.isLt
  obtain ⟨k, e, hk⟩ : ∃ (k : Fin 6) (e : Fin 512), f.val = 512 * k.val + e.val :=
    ⟨⟨f.val / 512, by omega⟩, ⟨f.val % 512, by omega⟩, by show f.val = 512 * (f.val / 512) + f.val % 512; omega⟩
  have he := e.isLt
  rw [Cert.Gnn.side_at _ _ _ _ s k.val e f hk]
  match k, hk with
  | ⟨0, _⟩, hk =>
    have hk' : f.val = 512 * 0 + e.val := hk
    rw [cat3_0 x0 x1 x4 x5 b s f ⟨0 + e.val, by omega⟩ (by show 0 + (0 + e.val) = f.val; omega),
      catL_0 x0 x1 x4 x5 b s ⟨0 + e.val, by omega⟩ e (by show 0 + e.val = e.val; omega), layer_0]
    rfl
  | ⟨1, _⟩, hk =>
    have hk' : f.val = 512 * 1 + e.val := hk
    rw [cat3_0 x0 x1 x4 x5 b s f ⟨512 + e.val, by omega⟩ (by show 0 + (512 + e.val) = f.val; omega),
      catR_0 x0 x1 x4 x5 b s ⟨512 + e.val, by omega⟩ e (by show e.val + 512 = 512 + e.val; omega), layer_1]
    rfl
  | ⟨2, _⟩, hk =>
    have hk' : f.val = 512 * 2 + e.val := hk
    rw [cat3_1 x0 x1 x4 x5 b s f ⟨0 + e.val, by omega⟩ (by show 1024 + (0 + e.val) = f.val; omega),
      catL_1 x0 x1 x4 x5 b s ⟨0 + e.val, by omega⟩ e (by show 0 + e.val = e.val; omega), layer_2]
    rfl
  | ⟨3, _⟩, hk =>
    have hk' : f.val = 512 * 3 + e.val := hk
    rw [cat3_1 x0 x1 x4 x5 b s f ⟨512 + e.val, by omega⟩ (by show 1024 + (512 + e.val) = f.val; omega),
      catR_1 x0 x1 x4 x5 b s ⟨512 + e.val, by omega⟩ e (by show e.val + 512 = 512 + e.val; omega), layer_3]
    rfl
  | ⟨4, _⟩, hk =>
    have hk' : f.val = 512 * 4 + e.val := hk
    rw [cat3_2 x0 x1 x4 x5 b s f ⟨0 + e.val, by omega⟩ (by show 2048 + (0 + e.val) = f.val; omega),
      catL_2 x0 x1 x4 x5 b s ⟨0 + e.val, by omega⟩ e (by show 0 + e.val = e.val; omega), layer_4]
    rfl
  | ⟨5, _⟩, hk =>
    have hk' : f.val = 512 * 5 + e.val := hk
    rw [cat3_2 x0 x1 x4 x5 b s f ⟨512 + e.val, by omega⟩ (by show 2048 + (512 + e.val) = f.val; omega),
      catR_2 x0 x1 x4 x5 b s ⟨512 + e.val, by omega⟩ e (by show e.val + 512 = 512 + e.val; omega), layer_5]
    rfl

/-! ## The output map -/

/-- The result at batch element `b`, row `s`, column `d`. -/
theorem out_eq (x0 : (⟨S3x16x512x512, .f32⟩ : BufTy).Contents (Elt Ideal)) (x1 : (⟨S16x512x512, .f32⟩ : BufTy).Contents (Elt Ideal)) (x4 : (⟨S6x512x512, .f32⟩ : BufTy).Contents (Elt Ideal)) (x5 : (⟨S6x512, .f32⟩ : BufTy).Contents (Elt Ideal)) (x6 : (⟨S512x3072, .f32⟩ : BufTy).Contents (Elt Ideal)) (x7 : (⟨S512, .f32⟩ : BufTy).Contents (Elt Ideal)) (b : Fin 16) (s d : Fin 512) :
    val_main_v116 (F := Ideal) x0 x1 x4 x5 x6 x7 (ix3 b s d)
      = Cert.Gnn.out (fun h s t => x0 (ix4 h b s t)) (fun t d => x1 (ix3 b t d)) (fun k e d => x4 (ix3 k e d)) (fun k e => x5 (ix2 k e)) (fun d f => x6 (ix2 d f)) (fun d => x7 (ix1 d)) s d := by
  have h1 : ∀ f : Fin 3072, val_main_v111 (F := Ideal) x0 x1 x4 x5 (lidx_main_v112 (ix3 b s d) f) * x6 (ridx_main_v112 (ix3 b s d) f)
      = Cert.Gnn.side (fun h s t => x0 (ix4 h b s t)) (fun t d => x1 (ix3 b t d)) (fun k e d => x4 (ix3 k e d)) (fun k e => x5 (ix2 k e)) s f * x6 (ix2 d f) := fun f => by
    rw [show lidx_main_v112 (ix3 b s d) f = ix3 b s f from funext fun a => Fin.ext (by match a with | ⟨0, _⟩ => rfl | ⟨1, _⟩ => rfl | ⟨2, _⟩ => rfl),
      show ridx_main_v112 (ix3 b s d) f = ix2 d f from funext fun a => Fin.ext (by match a with | ⟨0, _⟩ => rfl | ⟨1, _⟩ => rfl), side_eq]
  have h2 : x7 (idx_main_v113 (idx_main_v114 (ix3 b s d))) = x7 (ix1 d) :=
    congrArg x7 (funext fun a => Fin.ext (by match a with | ⟨0, _⟩ => rfl))
  rw [val_main_v116_apply, val_main_v115_apply, val_main_v112_apply, val_main_v114_apply, val_main_v113_apply,
    Finset.sum_congr rfl (fun f _ => h1 f), h2]
  rfl

/-- **The reference computes `G`.** -/
theorem ref_eq (x0 : FVec Ideal S3x16x512x512 .f32) (x1 : FVec Ideal S16x512x512 .f32) (x4 : FVec Ideal S6x512x512 .f32)
    (x5 : FVec Ideal S6x512 .f32) (x6 : FVec Ideal S512x3072 .f32) (x7 : FVec Ideal S512 .f32) :
    Cert.ReferenceIdeal.Read.val_main_v116 (F := Ideal) x0 x1 x4 x5 x6 x7 = Cert.Gnn.G x0 x1 x4 x5 x6 x7 := by
  funext i
  obtain ⟨b, s, d, rfl⟩ : ∃ b s d, i = ix3 b s d := ⟨i 0, i 1, i 2, eq_ix3 i⟩
  rw [Cert.Gnn.G_apply]
  exact out_eq x0 x1 x4 x5 x6 x7 b s d

end Cert.ReferenceIdeal.RefValue

end
-- ==== Proof.lean ====
/-
  The kernel and the plain program compute the same graph-convolution block, over the extended reals.

  Per batch element and head, with `A` the head's adjacency matrix and `den` one plus its row sums, two layers
  `X ↦ max ((((A · X) + X) · Wᵀ + 2 · b) / den) 0` are stacked on the input features; the six layer outputs are laid
  side by side and mapped by the output weight, and the output bias and the input features are added
  (`Cert.Gnn.G`). The kernel does this for one batch element per grid point, keeping the six outputs in a scratch
  matrix, with operands narrowed to the short float format (the identity on the extended reals) and the two weight
  arrays transposed before the launch; its result array after the run is `G` of the argument arrays
  (`Cert.KernelIdeal.Arr.run`). The plain program's run ends with its result at the composed term of its operations,
  which is `G` of its argument arrays index by index (`Cert.ReferenceIdeal.RefValue.ref_eq`): the same products in the
  same order, only the index bookkeeping of slices, reshapes, broadcasts and concatenations differs. The arguments
  agree, so the results do. The three frames are the generated runs; no operation was rewritten by the idealization.
-/
import proofs.«173532_j90305982366173_1_alg».proof.Defs
import proofs.«173532_j90305982366173_1_alg».proof.Proof.Gen.Kernel
import proofs.«173532_j90305982366173_1_alg».proof.Proof.Gen.Kernel.Skeleton
import proofs.«173532_j90305982366173_1_alg».proof.Proof.Gen.Kernel.Launch
import proofs.«173532_j90305982366173_1_alg».proof.Proof.Gen.Kernel.Points
import proofs.«173532_j90305982366173_1_alg».proof.Proof.Gen.Kernel.Frame
import proofs.«173532_j90305982366173_1_alg».proof.Proof.Gen.KernelIdeal
import proofs.«173532_j90305982366173_1_alg».proof.Proof.Gen.KernelIdeal.Skeleton
import proofs.«173532_j90305982366173_1_alg».proof.Proof.Gen.KernelIdeal.Launch
import proofs.«173532_j90305982366173_1_alg».proof.Proof.Gen.KernelIdeal.Points
import proofs.«173532_j90305982366173_1_alg».proof.Proof.Gen.KernelIdeal.Frame
import proofs.«173532_j90305982366173_1_alg».proof.Proof.Gen.ReferenceIdeal
import proofs.«173532_j90305982366173_1_alg».proof.Proof.Gen.Pre_finite_inputs
import proofs.«173532_j90305982366173_1_alg».proof.Proof.Gen.KernelIdeal.Value
import proofs.«173532_j90305982366173_1_alg».proof.Proof.Gen.ReferenceIdeal.Run
import proofs.«173532_j90305982366173_1_alg».proof.Proof.Gen.ReferenceIdeal.Read
import proofs.«173532_j90305982366173_1_alg».proof.Proof.KArray
import proofs.«173532_j90305982366173_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at `G` of argument arrays that agree. -/
theorem algebraic : Cert.algebraic_KernelIdeal_ReferenceIdeal := by
  intro m ρ m' ρ' _ hagree
  refine ⟨fun c => Cert.KernelIdeal.Arr.GK m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v116_eq, Cert.ReferenceIdeal.RefValue.ref_eq]
  obtain ⟨h0, h1, -, -, h4, h5, h6, h7⟩ := hagree c
  rw [h0, h1, h4, h5, h6, h7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
